-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S128x512 : Shape := ⟨2, ![128, 512]⟩
abbrev S128 : Shape := ⟨1, ![128]⟩
abbrev S64x128 : Shape := ⟨2, ![64, 128]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S131072x512 .f32) (main_arg1 : IVec S131072 32) (main_arg2 : FVec F S128x512 .f32) (main_arg3 : FVec F S128 .f32) (main_arg4 : FVec F S64x128 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S131072x512 : Shape := ⟨2, ![131072, 512]⟩
abbrev S131072 : Shape := ⟨1, ![131072]⟩
abbrev S128x512 : Shape := ⟨2, ![128, 512]⟩
abbrev S128 : Shape := ⟨1, ![128]⟩
abbrev S64x128 : Shape := ⟨2, ![64, 128]⟩
abbrev S131072x1 : Shape := ⟨2, ![131072, 1]⟩
abbrev S131072x128 : Shape := ⟨2, ![131072, 128]⟩
abbrev S2x64x128 : Shape := ⟨3, ![2, 64, 128]⟩
abbrev S4096x512 : Shape := ⟨2, ![4096, 512]⟩
abbrev S4096x1 : Shape := ⟨2, ![4096, 1]⟩
abbrev S4096x128 : Shape := ⟨2, ![4096, 128]⟩
abbrev S1x64x128 : Shape := ⟨3, ![1, 64, 128]⟩
abbrev S512x128 : Shape := ⟨2, ![512, 128]⟩
abbrev S1x128 : Shape := ⟨2, ![1, 128]⟩
abbrev S4096 : Shape := ⟨1, ![4096]⟩
abbrev S4096x64 : Shape := ⟨2, ![4096, 64]⟩
abbrev S64 : Shape := ⟨1, ![64]⟩
abbrev S1x64x1 : Shape := ⟨3, ![1, 64, 1]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128x64 : Shape := ⟨2, ![128, 64]⟩
abbrev S131072x64 : Shape := ⟨2, ![131072, 64]⟩
abbrev S8192x128 : Shape := ⟨2, ![8192, 128]⟩
abbrev S8192x1 : Shape := ⟨2, ![8192, 1]⟩
abbrev S8192x64 : Shape := ⟨2, ![8192, 64]⟩

abbrev nBuf : Space → Nat
  | .hbm => 44
  | .vmem => 21
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S128x512, .f32⟩
  | .hbm, ⟨3, _⟩ => ⟨S128, .f32⟩
  | .hbm, ⟨4, _⟩ => ⟨S64x128, .f32⟩
  | .hbm, ⟨5, _⟩ => ⟨S131072x1, .i32⟩
  | .hbm, ⟨6, _⟩ => ⟨S131072x128, .bf16⟩
  | .hbm, ⟨7, _⟩ => ⟨S131072x1, .f32⟩
  | .hbm, ⟨8, _⟩ => ⟨S2x64x128, .f32⟩
  | .hbm, ⟨9, _⟩ => ⟨S2x64x128, .f32⟩
  | .hbm, ⟨10, _⟩ => ⟨S_, .f32⟩
  | .hbm, ⟨11, _⟩ => ⟨S64x128, .f32⟩
  | .hbm, ⟨12, _⟩ => ⟨S_, .f32⟩
  | .hbm, ⟨13, _⟩ => ⟨S64x128, .f32⟩
  | .hbm, ⟨14, _⟩ => ⟨S64x1, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S64x128, .f32⟩
  | .hbm, ⟨23, _⟩ => ⟨S_, .f32⟩
  | .hbm, ⟨24, _⟩ => ⟨S64, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S128x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S131072x64, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S128x512, .f32⟩
  | .local _ .vmem, ⟨5, _⟩ => ⟨S128, .f32⟩
  | .local _ .vmem, ⟨6, _⟩ => ⟨S4096x128, .bf16⟩
  | .local _ .vmem, ⟨7, _⟩ => ⟨S4096x128, .bf16⟩
  | .local _ .vmem, ⟨8, _⟩ => ⟨S4096x1, .f32⟩
  | .local _ .vmem, ⟨9, _⟩ => ⟨S4096x1, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S8192x128, .bf16⟩
  | .local _ .vmem, ⟨15, _⟩ => ⟨S8192x128, .bf16⟩
  | .local _ .vmem, ⟨16, _⟩ => ⟨S8192x1, .f32⟩
  | .local _ .vmem, ⟨17, _⟩ => ⟨S8192x1, .f32⟩
  | .local _ .vmem, ⟨18, _⟩ => ⟨S64x128, .f32⟩
  | .local _ .vmem, ⟨19, _⟩ => ⟨S8192x64, .f32⟩
  | .local _ .vmem, ⟨20, _⟩ => ⟨S8192x64, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S131072_S131072x1 : S131072.ShapeCasts S131072x1
  inb_S1x64x128_S1x64x128_0_0_0 : ∀ a, (![0, 0, 0] : Fin 3 → Nat) a + S1x64x128.size a ≤ S1x64x128.size a
  h_S1x64x128 : 0 < S1x64x128.numel
  inb_S4096x512_S4096x512_0_0 : ∀ a, (![0, 0] : Fin 2 → Nat) a + S4096x512.size a ≤ S4096x512.size a
  h_S4096x512 : 0 < S4096x512.numel
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  transposes_S128x512_p1_0_S512x128 : S128x512.Transposes [1, 0] S512x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x64_d1_w32 : S4096x64.Iotas .tc 32 [1]
  broadcasts_S4096x1_S4096x64 : S4096x1.Broadcasts S4096x64
  natLt_1_32 : 1 < 32
  reduces_S4096x64_S64 : S4096x64.Reduces [0] S64
  shapeCasts_S1x64x128_S1x64x128 : S1x64x128.ShapeCasts S1x64x128
  shapeCasts_S64x128_S1x64x128 : S64x128.ShapeCasts S1x64x128
  shapeCasts_S64_S1x64x1 : S64.ShapeCasts S1x64x1
  shapeCasts_S1x64x1_S1x64x1 : S1x64x1.ShapeCasts S1x64x1
  broadcasts_S1x64x1_S1x64x128 : S1x64x1.Broadcasts S1x64x128
  reducesTo_S2x64x128_S64x128_d0 : S2x64x128.ReducesTo [0] S64x128
  h_S_ : 0 < S_.numel
  slices_S64x128_S64x1_0_0 : S64x128.Slices ![0, 0] S64x1
  bcast_S64x1_S64x128_0_1 : S64x1.BroadcastsInDim S64x128 (![0, 1] : Fin 2 → Fin S64x128.rank)
  reducesTo_S64x128_S64_d1 : S64x128.ReducesTo [1] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S64x128_S128x64_1_0 : S64x128.Transposes [1, 0] S128x64
  bcast_S_S64x64 : S_.BroadcastsInDim S64x64 (![] : Fin 0 → Fin S64x64.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S64x128_S64 : S64x128.Reduces [1] S64
  shapeCasts_S64_S1x64 : S64.ShapeCasts S1x64
  broadcasts_S8192x1_S8192x64 : S8192x1.Broadcasts S8192x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  dot_S4096x512_S512x128_S4096x128_1_0_0_1_n_n_wf : DotDims.WF S4096x512 S512x128 S4096x128 [1] [0] [0] [1] [] []
  dot_S4096x64_S4096x128_S64x128_0_0_1_1_n_n_wf : DotDims.WF S4096x64 S4096x128 S64x128 [0] [0] [1] [1] [] []
  dot_S64x128_S128x64_S64x64_1_0_0_1_n_n_wf : DotDims.WF S64x128 S128x64 S64x64 [1] [0] [0] [1] [] []
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .bf16 = 32 ∨ (Rect.block (s := S131072x128) S4096x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S131072x1.size a
  hwx0_5 : ∀ i : grid0.Coords, EltTy.bits .f32 = 32 ∨ (Rect.block (s := S131072x1) S4096x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x128.size a ≤ S2x64x128.size a
  hwx0_6 : ∀ i : grid0.Coords, EltTy.bits .f32 = 32 ∨ (Rect.block (s := S2x64x128) S1x64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x128.size a ≤ S2x64x128.size a
  hwx0_7 : ∀ i : grid0.Coords, EltTy.bits .f32 = 32 ∨ (Rect.block (s := S2x64x128) S1x64x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S131072x128.size a
  hwx1_0 : ∀ i : grid1.Coords, EltTy.bits .bf16 = 32 ∨ (Rect.block (s := S131072x128) S8192x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S131072x1.size a
  hwx1_1 : ∀ i : grid1.Coords, EltTy.bits .f32 = 32 ∨ (Rect.block (s := S131072x1) S8192x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S131072x64.size a
  hwx1_3 : ∀ i : grid1.Coords, EltTy.bits .f32 = 32 ∨ (Rect.block (s := S131072x64) S8192x64.size (cc1_transform_3 i) (hinb1_3 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x64_S4096x128_S64x128_0_0_1_1_n_n : DotDims S4096x64 S4096x128 S64x128 where
  lhsContracting := [0]
  rhsContracting := [0]
  lhsNonContracting := [1]
  rhsNonContracting := [1]
  lhsBatch := []
  rhsBatch := []
  wf := dot_S4096x64_S4096x128_S64x128_0_0_1_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S4096x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x64x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_3) S1x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1_0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S131072x512 : Shape := ⟨2, ![131072, 512]⟩
abbrev S131072 : Shape := ⟨1, ![131072]⟩
abbrev S128x512 : Shape := ⟨2, ![128, 512]⟩
abbrev S128 : Shape := ⟨1, ![128]⟩
abbrev S64x128 : Shape := ⟨2, ![64, 128]⟩
abbrev S512x128 : Shape := ⟨2, ![512, 128]⟩
abbrev S131072x128 : Shape := ⟨2, ![131072, 128]⟩
abbrev S1x128 : Shape := ⟨2, ![1, 128]⟩
abbrev S_ : Shape := ⟨0, ![]⟩
abbrev S131072x1 : Shape := ⟨2, ![131072, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128x64 : Shape := ⟨2, ![128, 64]⟩
abbrev S131072x64 : Shape := ⟨2, ![131072, 64]⟩

abbrev nBuf : Space → Nat
  | .hbm => 84
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S128x512, .f32⟩
  | .hbm, ⟨3, _⟩ => ⟨S128, .f32⟩
  | .hbm, ⟨4, _⟩ => ⟨S64x128, .f32⟩
  | .hbm, ⟨5, _⟩ => ⟨S512x128, .f32⟩
  | .hbm, ⟨6, _⟩ => ⟨S131072x128, .f32⟩
  | .hbm, ⟨7, _⟩ => ⟨S1x128, .f32⟩
  | .hbm, ⟨8, _⟩ => ⟨S131072x128, .f32⟩
  | .hbm, ⟨9, _⟩ => ⟨S131072x128, .f32⟩
  | .hbm, ⟨10, _⟩ => ⟨S_, .f32⟩
  | .hbm, ⟨11, _⟩ => ⟨S64x128, .f32⟩
  | .hbm, ⟨12, _⟩ => ⟨S131072x1, .i32⟩
  | .hbm, ⟨13, _⟩ => ⟨S64x128, .f32⟩
  | .hbm, ⟨14, _⟩ => ⟨S_, .f32⟩
  | .hbm, ⟨15, _⟩ => ⟨S131072, .f32⟩
  | .hbm, ⟨16, _⟩ => ⟨S_, .f32⟩
  | .hbm, ⟨17, _⟩ => ⟨S64, .f32⟩
  | .hbm, ⟨18, _⟩ => ⟨S131072x1, .i32⟩
  | .hbm, ⟨19, _⟩ => ⟨S64, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S64x128, .f32⟩
  | .hbm, ⟨24, _⟩ => ⟨S64x128, .f32⟩
  | .hbm, ⟨25, _⟩ => ⟨S_, .f32⟩
  | .hbm, ⟨26, _⟩ => ⟨S64, .f32⟩
  | .hbm, ⟨27, _⟩ => ⟨S64x1, .f32⟩
  | .hbm, ⟨28, _⟩ => ⟨S64x128, .f32⟩
  | .hbm, ⟨29, _⟩ => ⟨S_, .f32⟩
  | .hbm, ⟨30, _⟩ => ⟨S64, .f32⟩
  | .hbm, ⟨31, _⟩ => ⟨S1x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S128x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S131072x128, .f32⟩
  | .hbm, ⟨51, _⟩ => ⟨S_, .f32⟩
  | .hbm, ⟨52, _⟩ => ⟨S131072, .f32⟩
  | .hbm, ⟨53, _⟩ => ⟨S131072x1, .f32⟩
  | .hbm, ⟨54, _⟩ => ⟨S64x128, .f32⟩
  | .hbm, ⟨55, _⟩ => ⟨S_, .f32⟩
  | .hbm, ⟨56, _⟩ => ⟨S64, .f32⟩
  | .hbm, ⟨57, _⟩ => ⟨S1x64, .f32⟩
  | .hbm, ⟨58, _⟩ => ⟨S131072x64, .f32⟩
  | .hbm, ⟨59, _⟩ => ⟨S131072x64, .f32⟩
  | .hbm, ⟨60, _⟩ => ⟨S131072x64, .f32⟩
  | .hbm, ⟨61, _⟩ => ⟨S128x64, .f32⟩
  | .hbm, ⟨62, _⟩ => ⟨S131072x64, .f32⟩
  | .hbm, ⟨63, _⟩ => ⟨S_, .f32⟩
  | .hbm, ⟨64, _⟩ => ⟨S131072x64, .f32⟩
  | .hbm, ⟨65, _⟩ => ⟨S131072x64, .f32⟩
  | .hbm, ⟨66, _⟩ => ⟨S131072x64, .f32⟩
  | .hbm, ⟨67, _⟩ => ⟨S_, .f32⟩
  | .hbm, ⟨68, _⟩ => ⟨S_, .f32⟩
  | .hbm, ⟨69, _⟩ => ⟨S131072x64, .f32⟩
  | .hbm, ⟨70, _⟩ => ⟨S131072x64, .f32⟩
  | .hbm, ⟨71, _⟩ => ⟨S131072x64, .f32⟩
  | .hbm, ⟨72, _⟩ => ⟨S_, .f32⟩
  | .hbm, ⟨73, _⟩ => ⟨S131072x64, .f32⟩
  | .hbm, ⟨74, _⟩ => ⟨S131072x64, .f32⟩
  | .hbm, ⟨75, _⟩ => ⟨S131072x64, .f32⟩
  | .hbm, ⟨76, _⟩ => ⟨S131072x64, .f32⟩
  | .hbm, ⟨77, _⟩ => ⟨S131072x64, .f32⟩
  | .hbm, ⟨78, _⟩ => ⟨S_, .f32⟩
  | .hbm, ⟨79, _⟩ => ⟨S131072x64, .f32⟩
  | .hbm, ⟨80, _⟩ => ⟨S131072x64, .f32⟩
  | .hbm, ⟨81, _⟩ => ⟨S_, .f32⟩
  | .hbm, ⟨82, _⟩ => ⟨S131072x64, .f32⟩
  | .hbm, ⟨83, _⟩ => ⟨S131072x64, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_call1_v0 : Ref sig .tc := ⟨.hbm, 68, rfl⟩
abbrev main_call1_v1 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S64x128 : S_.BroadcastsInDim S64x128 (![] : Fin 0 → Fin S64x128.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S64x128_S64_d1 : S64x128.ReducesTo [1] S64
  h_S_ : 0 < S_.numel
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S64x128_S128x64_1_0 : S64x128.Transposes [1, 0] S128x64
  bcast_S_S64x64 : S_.BroadcastsInDim S64x64 (![] : Fin 0 → Fin S64x64.rank)
  reducesTo_S131072x128_S131072_d1 : S131072x128.ReducesTo [1] S131072
  bcast_S131072x1_S131072x64_0_1 : S131072x1.BroadcastsInDim S131072x64 (![0, 1] : Fin 2 → Fin S131072x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  dot_S131072x512_S512x128_S131072x128_1_0_0_1_n_n_wf : DotDims.WF S131072x512 S512x128 S131072x128 [1] [0] [0] [1] [] []
  scatter_S64x128_S131072x1_S131072x128_1_0_0_1_wf : ScatterDims.WF S64x128 S131072x1 S131072x128 [1] [0] [0] 1
  scatter_S64_S131072x1_S131072_n_0_0_1_wf : ScatterDims.WF S64 S131072x1 S131072 [] [0] [0] 1
  dot_S64x128_S128x64_S64x64_1_0_0_1_n_n_wf : DotDims.WF S64x128 S128x64 S64x64 [1] [0] [0] [1] [] []
  dot_S131072x128_S128x64_S131072x64_1_0_0_1_n_n_wf : DotDims.WF S131072x128 S128x64 S131072x64 [1] [0] [0] [1] [] []

variable [Facts₀]

def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf
def scatter_S64x128_S131072x1_S131072x128_1_0_0_1 : ScatterDims S64x128 S131072x1 S131072x128 where
  updateWindowDims := [1]
  insertedWindowDims := [0]
  scatterDimsToOperandDims := [0]
  indexVectorDim := 1
  wf := scatter_S64x128_S131072x1_S131072x128_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf

class Facts : Prop extends Facts₀ where

variable [Facts]
-- ==== Proof.KernelGlue.lean ====
/-
  The host operations of the kernel's @main around its two regions, read as values at the extended reals.

  After the first region the two accumulated arrays (per-half class sums and class counts) are summed over the two
  halves, the counts' first column is spread back over the features, the quotient is added to the given centroid:
  the new centroid.  From it the second result is formed on the host: `exp (-½ · sqrt (max (d², ε)))` of the pairwise
  squared distances of the new centroid's rows.  The second region reads the first region's per-row outputs and the
  new centroid.
-/
import proofs.«420840_j11742440587416_3_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The new centroid from the two accumulated arrays and the given centroid. -/
def ncOf (S2 C2 : (⟨S2x64x128, .f32⟩ : BufTy).Contents (Elt F)) (cen : (⟨S64x128, .f32⟩ : BufTy).Contents (Elt F)) :
    (⟨S64x128, .f32⟩ : BufTy).Contents (Elt F) :=
  addf cen (Host.divf (Host.reduceAdd S2 (constant (F := F) S_ .f32 0x00000000#32) reducesTo_S2x64x128_S64x128_d0 h_S_)
    (broadcastInDim S64x128 ![0, 1] bcast_S64x1_S64x128_0_1
      (extractStridedSlice S64x1 ![0, 0] (Host.reduceAdd C2 (constant (F := F) S_ .f32 0x00000000#32) reducesTo_S2x64x128_S64x128_d0 h_S_) slices_S64x128_S64x1_0_0)))

/-- The pairwise squared distances of the rows of `nc`, written out. -/
def pairDist2 (nc : (⟨S64x128, .f32⟩ : BufTy).Contents (Elt F)) : (⟨S64x64, .f32⟩ : BufTy).Contents (Elt F) :=
  subf
    (addf
      (broadcastInDim S64x64 ![0, 1] bcast_S64x1_S64x64_0_1 (broadcastInDim S64x1 ![0] bcast_S64_S64x1_0
        (Host.reduceAdd (mulf nc nc) (constant (F := F) S_ .f32 0x00000000#32) reducesTo_S64x128_S64_d1 h_S_)))
      (broadcastInDim S64x64 ![0, 1] bcast_S1x64_S64x64_0_1 (broadcastInDim S1x64 ![1] bcast_S64_S1x64_1
        (Host.reduceAdd (mulf nc nc) (constant (F := F) S_ .f32 0x00000000#32) reducesTo_S64x128_S64_d1 h_S_))))
    (mulf (broadcastInDim S64x64 ![] bcast_S_S64x64 (constant (F := F) S_ .f32 0x40000000#32))
      (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) nc
        (((transpose S128x64 [1, 0] · transposes_S64x128_S128x64_1_0) : (⟨S64x128, .f32⟩ : BufTy).Contents (Elt F) → (⟨S128x64, .f32⟩ : BufTy).Contents (Elt F)) nc)))

/-- The second result from the new centroid. -/
def protoOf (nc : (⟨S64x128, .f32⟩ : BufTy).Contents (Elt F)) : (⟨S64x64, .f32⟩ : BufTy).Contents (Elt F) :=
  Host.exp (mulf (broadcastInDim S64x64 ![] bcast_S_S64x64 (constant (F := F) S_ .f32 0xBF000000#32))
    (Host.sqrt (maximumf (pairDist2 nc) (broadcastInDim S64x64 ![] bcast_S_S64x64 (constant (F := F) S_ .f32 0x2B8CBCCC#32)))))

/-- The new centroid at the second region's entry. -/
theorem W3_v7 (c : Dev nD) :
    W3 m ρ c (Proc.devRef .tc main_v7)
      = ncOf (W2 m ρ c (Proc.devRef .tc main_v1_2)) (W2 m ρ c (Proc.devRef .tc main_v1_3)) (W2 m ρ c (Proc.devRef .tc main_arg4)) := by
  show StableHlo.after hostOps1 (W2 m ρ c) (Proc.devRef .tc main_v7) = _
  dsimp only [hostOps1]
  after_results
  rfl

set_option maxHeartbeats 2000000 in
/-- The second result at the second region's entry. -/
theorem W3_v27 (c : Dev nD) :
    W3 m ρ c (Proc.devRef .tc main_v27) = protoOf (W3 m ρ c (Proc.devRef .tc main_v7)) := by
  rw [W3_v7]
  show StableHlo.after hostOps1 (W2 m ρ c) (Proc.devRef .tc main_v27) = _
  dsimp only [hostOps1]
  after_results_simp
  rfl

/-! ## The buffers the regions and the host operations leave alone -/

/-- The first region's per-row outputs reach the second region as the first region left them. -/
theorem W3_v1_0 (c : Dev nD) : W3 m ρ c (Proc.devRef .tc main_v1_0) = (dat0 (V1 m ρ) c).arrAt 4 cfg0.N :=
  (StableHlo.after_of_forall_not_mem (b := Proc.devRef .tc main_v1_0) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))).trans (W2_arr m ρ c 4)

theorem W3_v1_1 (c : Dev nD) : W3 m ρ c (Proc.devRef .tc main_v1_1) = (dat0 (V1 m ρ) c).arrAt 5 cfg0.N :=
  (StableHlo.after_of_forall_not_mem (b := Proc.devRef .tc main_v1_1) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))).trans (W2_arr m ρ c 5)

/-- The given centroid is as launched when the host glue reads it. -/
theorem W2_arg4 (c : Dev nD) : W2 m ρ c (Proc.devRef .tc main_arg4) = m ((c : Thread nD τ).loc main_arg4) :=
  (W2_of_ne m ρ c main_arg4 (by decide)).trans
    (StableHlo.after_of_forall_not_mem (b := Proc.devRef .tc main_arg4) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))))

/-- The first region finds its three float arguments as launched … -/
theorem V1_arg0 (c : Dev nD) : V1 m ρ c main_arg0 = m ((c : Thread nD τ).loc main_arg0) :=
  StableHlo.after_of_forall_not_mem (b := Proc.devRef .tc main_arg0) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
theorem V1_arg2 (c : Dev nD) : V1 m ρ c main_arg2 = m ((c : Thread nD τ).loc main_arg2) :=
  StableHlo.after_of_forall_not_mem (b := Proc.devRef .tc main_arg2) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
theorem V1_arg3 (c : Dev nD) : V1 m ρ c main_arg3 = m ((c : Thread nD τ).loc main_arg3) :=
  StableHlo.after_of_forall_not_mem (b := Proc.devRef .tc main_arg3) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))

/-- … and the class words reshaped to a column. -/
theorem V1_v0 (c : Dev nD) :
    V1 m ρ c main_v0 = shapeCast S131072x1 (m ((c : Thread nD τ).loc main_arg1)) shapeCasts_S131072_S131072x1 := by
  show StableHlo.after hostOps0 (W0 m ρ c) (Proc.devRef .tc main_v0) = _
  dsimp only [hostOps0]
  after_results
  rfl

end Cert.KernelIdeal.Glue

end
-- ==== Proof.Spec.lean ====
/-
  The mathematics both programs compute, index by index, over the extended reals.

  A batch of 131072 rows `x r` of 512 features is projected to 128 features, `P r e = Σ_k x r k · W e k + b e`.
  Each row carries a class word `y r`; row `r` belongs to class `c < 64` exactly when its word is `c`
  (a word outside `0 … 63` belongs to no class).  Per class: the sum of its rows' projections and the number of
  its rows; their quotient, added to the given centroid, is the new centroid `nc c e`.  The first result is, for
  row `r` and class `c`, the logistic function `1 / (1 + exp (-z))` of `z = exp (-½ · sqrt (max (d², ε)))`, where
  `d² = (‖P r‖² + ‖nc c‖²) - 2 · ⟨P r, nc c⟩` is the squared distance written out.  The four float constants
  are kept as the words both programs print.
-/
import Idealize.ShloMosaic.PureOps.Ideal
import Idealize.ShloMosaic.Lib.ValueIdx

noncomputable section

namespace Cert.Spec

open Idealize.ShloMosaic Idealize.ShloMosaic.ValueIdx
open scoped BigOperators

/-- The row projection `P r e = Σ_k x r k · W e k + b e`. -/
def proj (x : (⟨2, ![131072, 512]⟩ : Shape).Idx → EReal) (W : (⟨2, ![128, 512]⟩ : Shape).Idx → EReal)
    (b : (⟨1, ![128]⟩ : Shape).Idx → EReal) : (⟨2, ![131072, 128]⟩ : Shape).Idx → EReal :=
  fun i => (∑ k : Fin 512, x (ix2 (i 0) k) * W (ix2 (i 1) k)) + b (ix1 (i 1))

/-- The squared norm of a row of `P`, kept as a column. -/
def sqRow (P : (⟨2, ![131072, 128]⟩ : Shape).Idx → EReal) : (⟨2, ![131072, 1]⟩ : Shape).Idx → EReal :=
  fun i => ∑ e : Fin 128, P (ix2 (i 0) e) * P (ix2 (i 0) e)

/-- Row `r` belongs to class `c`: one or zero. -/
def hot (y : (⟨1, ![131072]⟩ : Shape).Idx → BitVec 32) (r : Fin 131072) (c : Fin 64) : EReal :=
  if y (ix1 r) = BitVec.ofNat 32 c.val then 1 else 0

/-- The sum of the projections of class `c`'s rows. -/
def classSum (y : (⟨1, ![131072]⟩ : Shape).Idx → BitVec 32) (P : (⟨2, ![131072, 128]⟩ : Shape).Idx → EReal) :
    (⟨2, ![64, 128]⟩ : Shape).Idx → EReal :=
  fun i => ∑ r : Fin 131072, hot y r (i 0) * P (ix2 r (i 1))

/-- The number of class `c`'s rows, repeated along the feature axis. -/
def classCount (y : (⟨1, ![131072]⟩ : Shape).Idx → BitVec 32) : (⟨2, ![64, 128]⟩ : Shape).Idx → EReal :=
  fun i => ∑ r : Fin 131072, hot y r (i 0)

/-- The kernel keeps the class words as a column; this reads the column back as a vector. -/
def col (y2 : (⟨2, ![131072, 1]⟩ : Shape).Idx → BitVec 32) : (⟨1, ![131072]⟩ : Shape).Idx → BitVec 32 :=
  fun i => y2 (ix2 (i 0) 0)

/-- Row `r` of half `h` of the batch (the batch is summed in two halves of 65536 rows). -/
def halfRow (h : Fin 2) (r : Fin 65536) : Fin 131072 := ⟨65536 * h.val + r.val, by omega⟩

/-- The class sums over one half of the batch. -/
def halfSum (y : (⟨1, ![131072]⟩ : Shape).Idx → BitVec 32) (P : (⟨2, ![131072, 128]⟩ : Shape).Idx → EReal) :
    (⟨3, ![2, 64, 128]⟩ : Shape).Idx → EReal :=
  fun i => ∑ r : Fin 65536, hot y (halfRow (i 0) r) (i 1) * P (ix2 (halfRow (i 0) r) (i 2))

/-- The class counts over one half of the batch, repeated along the feature axis. -/
def halfCount (y : (⟨1, ![131072]⟩ : Shape).Idx → BitVec 32) : (⟨3, ![2, 64, 128]⟩ : Shape).Idx → EReal :=
  fun i => ∑ r : Fin 65536, hot y (halfRow (i 0) r) (i 1)

/-- The new centroid: the given one plus the class mean. -/
def newCentroid (cen S N : (⟨2, ![64, 128]⟩ : Shape).Idx → EReal) : (⟨2, ![64, 128]⟩ : Shape).Idx → EReal :=
  fun i => cen i + Ideal.div (S i) (N i)

/-- The squared distance of row `r` of `P` (its squared norm given as `q`) to row `c` of `nc`, written out. -/
def dist2 (P : (⟨2, ![131072, 128]⟩ : Shape).Idx → EReal) (q : (⟨2, ![131072, 1]⟩ : Shape).Idx → EReal)
    (nc : (⟨2, ![64, 128]⟩ : Shape).Idx → EReal) (r : Fin 131072) (c : Fin 64) : EReal :=
  (q (ix2 r 0) + ∑ e : Fin 128, nc (ix2 c e) * nc (ix2 c e))
    - Ideal.ofBits .f32 0x40000000#32 * ∑ e : Fin 128, P (ix2 r e) * nc (ix2 c e)

/-- The first result at row `r`, class `c`. -/
def score (P : (⟨2, ![131072, 128]⟩ : Shape).Idx → EReal) (q : (⟨2, ![131072, 1]⟩ : Shape).Idx → EReal)
    (nc : (⟨2, ![64, 128]⟩ : Shape).Idx → EReal) : (⟨2, ![131072, 64]⟩ : Shape).Idx → EReal :=
  fun i => Ideal.div (Ideal.ofBits .f32 0x3F800000#32)
    (Ideal.ofBits .f32 0x3F800000#32
      + Ideal.exp (-(Ideal.exp (Ideal.ofBits .f32 0xBF000000#32
          * Ideal.sqrt (max (dist2 P q nc (i 0) (i 1)) (Ideal.ofBits .f32 0x2B8CBCCC#32))))))

end Cert.Spec

end
-- ==== Proof.Halves.lean ====
/-
  A sum over the whole batch is the sum over its two halves: row `65536 · h + r` for `h < 2`, `r < 65536` runs
  over every row once.  So the class sums (and counts) of the two halves add up to the class sums of the batch.
-/
import proofs.«420840_j11742440587416_3_alg».proof.Proof.Spec

noncomputable section

namespace Cert.Spec

open Idealize.ShloMosaic Idealize.ShloMosaic.ValueIdx
open scoped BigOperators

/-- The rows of the two halves are all the rows, each once. -/
theorem sum_halves {β : Type*} [AddCommMonoid β] (f : Fin 131072 → β) :
    ∑ h : Fin 2, ∑ r : Fin 65536, f (halfRow h r) = ∑ r : Fin 131072, f r := by
  rw [← Fintype.sum_prod_type']
  refine Fintype.sum_equiv (finProdFinEquiv (m := 2) (n := 65536)) _ _ fun x => congrArg f (Fin.ext ?_)
  show 65536 * x.1.val + x.2.val = ((finProdFinEquiv x : Fin (2 * 65536)) : ℕ)
  rw [finProdFinEquiv_apply_val]
  omega

/-- The two halves' class sums add up to the batch's. -/
theorem halfSum_add (y : (⟨1, ![131072]⟩ : Shape).Idx → BitVec 32) (P : (⟨2, ![131072, 128]⟩ : Shape).Idx → EReal)
    (c : Fin 64) (e : Fin 128) :
    ∑ h : Fin 2, halfSum y P (ix3 h c e) = classSum y P (ix2 c e) :=
  sum_halves fun r => hot y r c * P (ix2 r e)

/-- The two halves' class counts add up to the batch's. -/
theorem halfCount_add (y : (⟨1, ![131072]⟩ : Shape).Idx → BitVec 32) (c : Fin 64) (e e' : Fin 128) :
    ∑ h : Fin 2, halfCount y (ix3 h c e) = classCount y (ix2 c e') :=
  sum_halves fun r => hot y r c

end Cert.Spec

end
-- ==== Proof.KernelBridge.lean ====
/-
  The kernel's host glue meets the specification: summing the two halves' class sums and counts gives the batch's,
  so the centroid the glue forms is the specification's new centroid.
-/
import proofs.«420840_j11742440587416_3_alg».proof.Proof.KernelGlue
import proofs.«420840_j11742440587416_3_alg».proof.Proof.Halves
import Idealize.ShloMosaic.PureOps.Ideal.Laws
import Idealize.ShloMosaic.Lib.Pipeline.Value

noncomputable section

namespace Cert.KernelIdeal.Bridge

open Cert.KernelIdeal Cert.KernelIdeal.Gen
open Idealize.ShloMosaic Idealize.ShloMosaic.ValueIdx Idealize.ShloMosaic.TcCoe Idealize.SL.Sem
open scoped BigOperators

/-- Summed over the two halves, the halves' class sums are the batch's class sums. -/
theorem reduce_halfSum (y : (⟨1, ![131072]⟩ : Shape).Idx → BitVec 32) (P : (⟨2, ![131072, 128]⟩ : Shape).Idx → EReal) :
    Host.reduceAdd (F := Ideal) (φ := .f32) (Spec.halfSum y P) (constant (F := Ideal) S_ .f32 0x00000000#32) reducesTo_S2x64x128_S64x128_d0 h_S_
      = Spec.classSum y P := by
  funext i
  obtain ⟨c, e, rfl⟩ : ∃ (c : Fin 64) (e : Fin 128), i = ix2 c e := ⟨i 0, i 1, eq_ix2 i⟩
  show Ideal.hostReduceAdd reducesTo_S2x64x128_S64x128_d0 (Spec.halfSum y P) (Ideal.ofBits .f32 0x00000000#32) (ix2 c e) = _
  rw [Ideal.hostReduceAdd_single _ (by decide : S2x64x128.Reduces [0] S64x128), Ideal.ofBits_zero_f32, zero_add,
    ← Spec.halfSum_add y P c e]
  refine Finset.sum_congr rfl fun h _ => congrArg (Spec.halfSum y P) ?_
  funext a
  match a with
  | ⟨0, _⟩ => rfl
  | ⟨1, _⟩ => rfl
  | ⟨2, _⟩ => rfl

/-- Summed over the two halves, the first column of the halves' class counts, spread over the features, is the batch's
    class counts. -/
theorem reduce_halfCount (y : (⟨1, ![131072]⟩ : Shape).Idx → BitVec 32) :
    broadcastInDim S64x128 ![0, 1] bcast_S64x1_S64x128_0_1
      (extractStridedSlice S64x1 ![0, 0]
        (Host.reduceAdd (F := Ideal) (φ := .f32) (Spec.halfCount y) (constant (F := Ideal) S_ .f32 0x00000000#32) reducesTo_S2x64x128_S64x128_d0 h_S_)
        slices_S64x128_S64x1_0_0)
      = Spec.classCount y := by
  funext i
  obtain ⟨c, e, rfl⟩ : ∃ (c : Fin 64) (e : Fin 128), i = ix2 c e := ⟨i 0, i 1, eq_ix2 i⟩
  rw [broadcastInDim_apply _ _ _ _ (ix2 c (0 : Fin 1)) (fun a => by match a with | ⟨0, _⟩ => rfl | ⟨1, _⟩ => rfl),
    extractStridedSlice_apply _ _ _ _ (ix2 c (0 : Fin 128)) (fun a => by match a with | ⟨0, _⟩ => exact (Nat.zero_add _).symm | ⟨1, _⟩ => rfl)]
  show Ideal.hostReduceAdd reducesTo_S2x64x128_S64x128_d0 (Spec.halfCount y) (Ideal.ofBits .f32 0x00000000#32) (ix2 c 0) = _
  rw [Ideal.hostReduceAdd_single _ (by decide : S2x64x128.Reduces [0] S64x128), Ideal.ofBits_zero_f32, zero_add,
    ← Spec.halfCount_add y c 0 e]
  refine Finset.sum_congr rfl fun h _ => congrArg (Spec.halfCount y) ?_
  funext a
  match a with
  | ⟨0, _⟩ => rfl
  | ⟨1, _⟩ => rfl
  | ⟨2, _⟩ => rfl

/-- The glue's last two operations are the specification's: the given centroid plus the quotient, entry by entry. -/
theorem add_div_eq (cen S N : FVec Ideal S64x128 .f32) :
    addf (F := Ideal) (φ := .f32) cen (Host.divf S N) = Spec.newCentroid cen S N := rfl

/-- The glue's centroid from the halves' sums and counts is the new centroid of the batch's sums and counts. -/
theorem ncOf_halves (y : (⟨1, ![131072]⟩ : Shape).Idx → BitVec 32) (P : (⟨2, ![131072, 128]⟩ : Shape).Idx → EReal)
    (cen : (⟨S64x128, .f32⟩ : BufTy).Contents (Elt Ideal)) :
    Glue.ncOf (F := Ideal) (Spec.halfSum y P) (Spec.halfCount y) cen
      = Spec.newCentroid cen (Spec.classSum y P) (Spec.classCount y) := by
  unfold Glue.ncOf
  exact (congrArg₂ (fun S N : FVec Ideal S64x128 .f32 => addf (F := Ideal) (φ := .f32) cen (Host.divf S N))
    (reduce_halfSum y P) (reduce_halfCount y)).trans (add_div_eq cen _ _)

end Cert.KernelIdeal.Bridge

end
-- ==== Proof.Region0Rows.lean ====
/-
  The two row outputs of the first region, over the extended reals.

  The region walks the 131072 rows of `x` in 32 tiles of 4096 rows.  At each tile it forms the projection
  `P r e = Σ_k x r k · W e k + b e` of the tile's rows (128 features from 512) and stores it, and stores beside it
  the squared norm `Σ_e (P r e)²` of each of those rows as a column.  Both stores happen at every tile, whether
  or not the tile opens a half of the batch, and each tile's stores are written back to the tile's own rows of the
  two output arrays.  So after the region the first array is the projection of the whole batch (`arr4`) and the
  second the squared norm of every row of it (`arr5`): per tile the stored value is read index by index (a change
  of float format is the identity on the extended reals, the product into the zero tile is the sum over the
  contracted axis, the bias row is repeated down the rows, the row sum is a sum over the 128 features), the tile's
  rows are rows `4096·t … 4096·t + 4095` of the arrays, and the 32 row ranges tile the 131072 rows.
-/
import proofs.«420840_j11742440587416_3_alg».proof.Proof.Gen.KernelIdeal.Frame
import proofs.«420840_j11742440587416_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region0Rows

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open scoped BigOperators

/-! ## What one grid point leaves in the two row outputs

At every point of the 2 × 16 grid, whether or not the point opens a half of the batch, the body stores the
projection tile (narrowed to the output's format) to the first row output and the tile's squared row norms, as a
column, to the second: one store each, covering the whole block, of a payload that reads the three input blocks
whole. -/

section Pieces
variable {F : FTy → Type} [FloatOps F]

theorem zero_offsets2 : (![0, 0] : Fin 2 → Nat) = fun _ => 0 := funext fun a => by fin_cases a <;> rfl
theorem zero_offsets1 : (![0] : Fin 1 → Nat) = fun _ => 0 := funext fun a => by fin_cases a; rfl

variable (c : Dev nD) (i : grid0.Coords)
  (arg2 : Memref sig .tc .vmem S4096x512 .f32) (harg2 : arg2.IsWhole)
  (arg3 : Memref sig .tc .vmem S4096x1 .i32) (harg3 : arg3.IsWhole)
  (arg4 : Memref sig .tc .vmem S128x512 .f32) (harg4 : arg4.IsWhole)
  (arg5 : Memref sig .tc .vmem S128 .f32) (harg5 : arg5.IsWhole)
  (arg6 : Memref sig .tc .vmem S4096x128 .bf16) (harg6 : arg6.IsWhole)
  (arg7 : Memref sig .tc .vmem S4096x1 .f32) (harg7 : arg7.IsWhole)
  (arg8 : Memref sig .tc .vmem S1x64x128 .f32) (harg8 : arg8.IsWhole)
  (arg9 : Memref sig .tc .vmem S1x64x128 .f32) (harg9 : arg9.IsWhole)

/-- A point that opens a half leaves the narrowed projection tile in the first row output. -/
theorem tile_open (hc0 : cond0_0 i)
    (x0 : Vec F S4096x512 .f32) (x1 : Vec F S4096x1 .i32) (x2 : Vec F S128x512 .f32) (x3 : Vec F S128 .f32) :
    out0_A_4 c i arg2 harg2 arg3 harg3 arg4 harg4 arg5 harg5 arg6 harg6 arg7 harg7 arg8 harg8 arg9 harg9 hc0 x0 x1 x2 x3
      = k0_pay5 x0 x2 x3 := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero zero_offsets2]
  simp only [View.readAt_eq_ld, harg2.read_unread, harg4.read_unread, harg5.read_unread,
    View.ld_unit_zero (S := S4096x512) zero_offsets2, View.ld_unit_zero (S := S128x512) zero_offsets2,
    View.ld_unit_zero (S := S128) zero_offsets1]

/-- Any other point leaves the same. -/
theorem tile_inside (hc0 : ¬cond0_0 i)
    (x0 : Vec F S4096x512 .f32) (x1 : Vec F S4096x1 .i32) (x2 : Vec F S128x512 .f32) (x3 : Vec F S128 .f32)
    (xo6 : Vec F S1x64x128 .f32) (xo7 : Vec F S1x64x128 .f32) :
    out0_B_4 c i arg2 harg2 arg3 harg3 arg4 harg4 arg5 harg5 arg6 harg6 arg7 harg7 arg8 harg8 arg9 harg9 hc0 x0 x1 x2 x3 xo6 xo7
      = k0_pay5 x0 x2 x3 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xo6 xo7)]
  unfold kernelRun0_B
  dsimp only
  sl_unfold_words
  rw [View.canon_unit_zero zero_offsets2]
  simp only [View.readAt_eq_ld, harg2.read_unread, harg4.read_unread, harg5.read_unread,
    View.ld_unit_zero (S := S4096x512) zero_offsets2, View.ld_unit_zero (S := S128x512) zero_offsets2,
    View.ld_unit_zero (S := S128) zero_offsets1]

/-- A point that opens a half leaves the tile's squared row norms in the second row output. -/
theorem norms_open (hc0 : cond0_0 i)
    (x0 : Vec F S4096x512 .f32) (x1 : Vec F S4096x1 .i32) (x2 : Vec F S128x512 .f32) (x3 : Vec F S128 .f32) :
    out0_A_5 c i arg2 harg2 arg3 harg3 arg4 harg4 arg5 harg5 arg6 harg6 arg7 harg7 arg8 harg8 arg9 harg9 hc0 x0 x1 x2 x3
      = k0_pay6 x0 x2 x3 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero zero_offsets2]
  simp only [View.readAt_eq_ld, harg2.read_unread, harg4.read_unread, harg5.read_unread,
    View.ld_unit_zero (S := S4096x512) zero_offsets2, View.ld_unit_zero (S := S128x512) zero_offsets2,
    View.ld_unit_zero (S := S128) zero_offsets1]

/-- Any other point leaves the same. -/
theorem norms_inside (hc0 : ¬cond0_0 i)
    (x0 : Vec F S4096x512 .f32) (x1 : Vec F S4096x1 .i32) (x2 : Vec F S128x512 .f32) (x3 : Vec F S128 .f32)
    (xo6 : Vec F S1x64x128 .f32) (xo7 : Vec F S1x64x128 .f32) :
    out0_B_5 c i arg2 harg2 arg3 harg3 arg4 harg4 arg5 harg5 arg6 harg6 arg7 harg7 arg8 harg8 arg9 harg9 hc0 x0 x1 x2 x3 xo6 xo7
      = k0_pay6 x0 x2 x3 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xo6 xo7)]
  unfold kernelRun0_B
  dsimp only
  sl_unfold_words
  rw [View.canon_unit_zero zero_offsets2]
  simp only [View.readAt_eq_ld, harg2.read_unread, harg4.read_unread, harg5.read_unread,
    View.ld_unit_zero (S := S4096x512) zero_offsets2, View.ld_unit_zero (S := S128x512) zero_offsets2,
    View.ld_unit_zero (S := S128) zero_offsets1]

end Pieces

/-! ## The two payloads read at an index, over the extended reals

A change of float format is the identity, the transposed weight read at `(k, e)` is the weight at `(e, k)`, a
product into the zero tile is the sum over the contracted axis of the operands' products, and the bias row is
repeated down the rows: the tile at `(p, q)` is `Σ_k x p k · w q k + b q`.  The column of squared norms at
`(p, 0)` is the sum over the 128 features of the tile's squares. -/

section Payload

/-- A left operand index of the tile's product keeps the output's row, -/
theorem lhs_row (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide),
    dif_pos (show (0 : Fin S4096x512.rank) ∈ dot_S4096x512_S512x128_S4096x128_1_0_0_1_n_n.lhsNonContracting by decide)]
  rfl
/-- and runs along the contracted axis; -/
theorem lhs_contr (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q
/-- a right operand index runs along the contracted axis -/
theorem rhs_contr (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q
/-- and keeps the output's column. -/
theorem rhs_col (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide),
    dif_pos (show (1 : Fin S512x128.rank) ∈ dot_S4096x512_S512x128_S4096x128_1_0_0_1_n_n.rhsNonContracting by decide)]
  rfl

/-- The product into the zero tile, at `(p, q)`: the sum over the 512 contracted positions. -/
theorem product_apply (l : FVec Ideal S4096x512 .bf16) (r : FVec Ideal S512x128 .bf16) (p : Fin 4096) (q : Fin 128) :
    matmul dot_S4096x512_S512x128_S4096x128_1_0_0_1_n_n none l r (constant (F := Ideal) S4096x128 .f32 0x00000000#32) (ix2 p q)
      = ∑ k : Fin 512, l (ix2 p k) * r (ix2 k q) := by
  simp only [matmul]
  rw [Ideal.matmul_constant_zero_apply,
    ← Equiv.sum_comp (ValueIdx.contrEquiv1 dot_S4096x512_S512x128_S4096x128_1_0_0_1_n_n 512 rfl rfl).symm]
  refine Finset.sum_congr rfl fun k _ => ?_
  have hk := ValueIdx.contrEquiv1_symm_val dot_S4096x512_S512x128_S4096x128_1_0_0_1_n_n 512 rfl rfl k
  have el : dot_S4096x512_S512x128_S4096x128_1_0_0_1_n_n.lhsIdx (ix2 p q)
      ((ValueIdx.contrEquiv1 dot_S4096x512_S512x128_S4096x128_1_0_0_1_n_n 512 rfl rfl).symm k) = ix2 p k :=
    funext fun a => Fin.ext (by
      match a with
      | ⟨0, _⟩ => exact lhs_row _ _
      | ⟨1, _⟩ => exact (lhs_contr _ _).trans hk)
  have er : dot_S4096x512_S512x128_S4096x128_1_0_0_1_n_n.rhsIdx (ix2 p q)
      ((ValueIdx.contrEquiv1 dot_S4096x512_S512x128_S4096x128_1_0_0_1_n_n 512 rfl rfl).symm k) = ix2 k q :=
    funext fun a => Fin.ext (by
      match a with
      | ⟨0, _⟩ => exact (rhs_contr _ _).trans hk
      | ⟨1, _⟩ => exact rhs_col _ _)
  rw [el, er]

/-- The projection tile at `(p, q)`. -/
theorem tile_apply (x : FVec Ideal S4096x512 .f32) (w : FVec Ideal S128x512 .f32) (b : FVec Ideal S128 .f32)
    (p : Fin 4096) (q : Fin 128) :
    k0_pay4 (F := Ideal) x w b (ix2 p q) = (∑ k : Fin 512, x (ix2 p k) * w (ix2 q k)) + b (ix1 q) := by
  unfold k0_pay4
  refine congrArg₂ (· + ·) ?_ ?_
  · refine (product_apply _ _ p q).trans (Finset.sum_congr rfl fun k _ => ?_)
    refine congrArg (x (ix2 p k) * ·) ?_
    exact transpose_apply [1, 0] (truncf .bf16 w bitsLt_bf16_f32) transposes_S128x512_p1_0_S512x128 (ix2 k q) (ix2 q k)
      (fun a => match a with
        | ⟨0, _⟩ => rfl
        | ⟨1, _⟩ => rfl)
  · exact (broadcastTo_1b_ab_apply _ broadcasts_S1x128_S4096x128 p q).trans
      (shapeCast_a_1a_apply b shapeCasts_S128_S1x128 0 q)

/-- The stored tile is the same numbers in the narrower format. -/
theorem stored_tile_apply (x : FVec Ideal S4096x512 .f32) (w : FVec Ideal S128x512 .f32) (b : FVec Ideal S128 .f32)
    (p : Fin 4096) (q : Fin 128) :
    k0_pay5 (F := Ideal) x w b (ix2 p q) = (∑ k : Fin 512, x (ix2 p k) * w (ix2 q k)) + b (ix1 q) :=
  tile_apply x w b p q

/-- A vector cast to a column reads, at `(i, 0)`, the vector at `i`. -/
theorem column_apply {α : Type} {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- The sum of a tile's squares along its 128 features, read at row `p`. -/
theorem row_sum_apply (v : FVec Ideal S4096x128 .f32) (hφ : FKind.Formats .f32)
    (hacc : (0x00000000#32 : BitVec 32) = 0x00000000#32) (p : Fin 4096) :
    multiReduction (F := Ideal) .add [1] S4096 v 0x00000000#32 reduces_S4096x128_S4096 hφ hacc (ix1 p)
      = ∑ e : Fin 128, v (ix2 p e) := by
  refine (Ideal.multiReduction_add_single v 0x00000000#32 reduces_S4096x128_S4096 hφ hacc (ix1 p)).trans ?_
  refine Finset.sum_congr rfl fun e _ => congrArg v ?_
  funext a
  match a with
  | ⟨0, _⟩ => rfl
  | ⟨1, _⟩ => rfl

/-- The column of squared row norms at `(p, 0)`. -/
theorem norms_apply (x : FVec Ideal S4096x512 .f32) (w : FVec Ideal S128x512 .f32) (b : FVec Ideal S128 .f32)
    (p : Fin 4096) (u : Fin 1) :
    k0_pay6 (F := Ideal) x w b (ix2 p u)
      = ∑ e : Fin 128, k0_pay4 (F := Ideal) x w b (ix2 p e) * k0_pay4 (F := Ideal) x w b (ix2 p e) := by
  unfold k0_pay6
  refine (column_apply _ shapeCasts_S4096_S4096x1 p u).trans ?_
  exact row_sum_apply _ _ _ p

end Payload

/-! ## From blocks to the two arrays

Point `t` of the grid (coordinates `(t / 16, t % 16)`) reads rows `4096·t … 4096·t + 4095` of `x`, the whole
of `W` and `b`, and writes back the same rows of both row outputs; the 32 points' row ranges tile the 131072
rows, so each output array ends holding one function of `x`, `W`, `b`. -/

section Blocks
variable (V : (c : Dev nD) → (b : Ref sig .tc) → Buf (Elt Ideal) ((c : Thread nD τ).loc b))

/-- The three input arrays as the region finds them, and their blocks at a point, by their literal types. -/
abbrev xArr (c : Dev nD) : S131072x512.Idx → EReal := V c main_arg0
abbrev wArr (c : Dev nD) : S128x512.Idx → EReal := V c main_arg2
abbrev bArr (c : Dev nD) : S128.Idx → EReal := V c main_arg3
abbrev xBlk (c : Dev nD) (t : Fin cfg0.N) : FVec Ideal S4096x512 .f32 := iblk0 V c 0 t
abbrev wBlk (c : Dev nD) (t : Fin cfg0.N) : FVec Ideal S128x512 .f32 := iblk0 V c 2 t
abbrev bBlk (c : Dev nD) (t : Fin cfg0.N) : FVec Ideal S128 .f32 := iblk0 V c 3 t

/-- After the body at any point the first row output's buffer holds the narrowed tile of the point's blocks, -/
theorem after_tile (c : Dev nD) (t : Fin cfg0.N) :
    (dat0 (F := Ideal) V c).after 4 t = k0_pay5 (F := Ideal) (xBlk V c t) (wBlk V c t) (bBlk V c t) := by
  rw [after0_4]
  by_cases h : t.val % 16 = 0
  · rw [outsAt0_A V c t h]
    dsimp only
    exact tile_open (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      ((hcond0_0 t).mpr h) (iblk0 V c 0 t) (iblk0 V c 1 t) (iblk0 V c 2 t) (iblk0 V c 3 t)
  · rw [outsAt0_B V c t h]
    dsimp only
    exact tile_inside (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      (fun h' => h ((hcond0_0 t).mp h')) (iblk0 V c 0 t) (iblk0 V c 1 t) (iblk0 V c 2 t) (iblk0 V c 3 t)
      (outsAt0 V c (t.val - 1) (Nat.lt_of_le_of_lt (Nat.sub_le _ _) t.isLt)).2.2.1
      (outsAt0 V c (t.val - 1) (Nat.lt_of_le_of_lt (Nat.sub_le _ _) t.isLt)).2.2.2

/-- and the second's the column of the tile's squared row norms. -/
theorem after_norms (c : Dev nD) (t : Fin cfg0.N) :
    (dat0 (F := Ideal) V c).after 5 t = k0_pay6 (F := Ideal) (xBlk V c t) (wBlk V c t) (bBlk V c t) := by
  rw [after0_5]
  by_cases h : t.val % 16 = 0
  · rw [outsAt0_A V c t h]
    dsimp only
    exact norms_open (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      ((hcond0_0 t).mpr h) (iblk0 V c 0 t) (iblk0 V c 1 t) (iblk0 V c 2 t) (iblk0 V c 3 t)
  · rw [outsAt0_B V c t h]
    dsimp only
    exact norms_inside (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      (fun h' => h ((hcond0_0 t).mp h')) (iblk0 V c 0 t) (iblk0 V c 1 t) (iblk0 V c 2 t) (iblk0 V c 3 t)
      (outsAt0 V c (t.val - 1) (Nat.lt_of_le_of_lt (Nat.sub_le _ _) t.isLt)).2.2.1
      (outsAt0 V c (t.val - 1) (Nat.lt_of_le_of_lt (Nat.sub_le _ _) t.isLt)).2.2.2

/-- The blocks' index maps at every point of the grid: the row blocks of `x` and of both row outputs sit at block
    row `t`, block column `0`; `W` and `b` are read whole. -/
theorem index_facts : ∀ t : Fin cfg0.N,
    win0_0.index t (0 : Fin 2) = t.val ∧ win0_0.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

end Blocks

section Arrays
variable (V : (c : Dev nD) → (b : Ref sig .tc) → Buf (Elt Ideal) ((c : Thread nD τ).loc b))

/-- The projection of the whole batch, at the entry contents. -/
abbrev projArr (c : Dev nD) : S131072x128.Idx → EReal := Cert.Spec.proj (xArr V c) (wArr V c) (bArr V c)

/-- The tile of the blocks at point `t`, at `(p, q)`, is the projection of the whole batch at the array index
    under `(p, q)` in either row output's block `t` (row `4096·t + p`): the block of `x` is read at the same row,
    `W` and `b` where they stand. -/
theorem tile_eq_proj (c : Dev nD) (t : Fin cfg0.N) (p : Fin 4096) (q : Fin 128) (i : S131072x128.Idx)
    (hi0 : (i 0).val = t.val * 4096 + p.val) (hi1 : (i 1).val = q.val) :
    k0_pay4 (F := Ideal) (xBlk V c t) (wBlk V c t) (bBlk V c t) (ix2 p q) = projArr V c i := by
  obtain ⟨e00, e01, e20, e21, e30, -, -, -, -⟩ := index_facts t
  refine (tile_apply (xBlk V c t) (wBlk V c t) (bBlk V c t) p q).trans ?_
  show _ = (∑ k : Fin 512, xArr V c (ix2 (i 0) k) * wArr V c (ix2 (i 1) k)) + bArr V c (ix1 (i 1))
  refine congrArg₂ (· + ·) (Finset.sum_congr rfl fun k _ => congrArg₂ (· * ·) ?_ ?_) ?_
  · show V c main_arg0 (((cfg0.win 0).blk t).view.emb (ix2 p k)) = V c main_arg0 (ix2 (i 0) k)
    refine congrArg (V c main_arg0) (funext fun a => Fin.ext ?_)
    match a with
    | ⟨0, _⟩ => show win0_0.index t (0 : Fin 2) * 4096 + 1 * p.val = (i 0).val; rw [e00, hi0]; omega
    | ⟨1, _⟩ => show win0_0.index t (1 : Fin 2) * 512 + 1 * k.val = k.val; rw [e01]; omega
  · show V c main_arg2 (((cfg0.win 2).blk t).view.emb (ix2 q k)) = V c main_arg2 (ix2 (i 1) k)
    refine congrArg (V c main_arg2) (funext fun a => Fin.ext ?_)
    match a with
    | ⟨0, _⟩ => show win0_2.index t (0 : Fin 2) * 128 + 1 * q.val = (i 1).val; rw [e20, hi1]; omega
    | ⟨1, _⟩ => show win0_2.index t (1 : Fin 2) * 512 + 1 * k.val = k.val; rw [e21]; omega
  · show V c main_arg3 (((cfg0.win 3).blk t).view.emb (ix1 q)) = V c main_arg3 (ix1 (i 1))
    refine congrArg (V c main_arg3) (funext fun a => Fin.ext ?_)
    match a with
    | ⟨0, _⟩ => show win0_3.index t (0 : Fin 1) * 128 + 1 * q.val = (i 1).val; rw [e30, hi1]; omega

/-- What point `t` writes back to the first row output is block `t` of the projection. -/
theorem flushed_tile (c : Dev nD) (t : Fin cfg0.N) :
    (dat0 (F := Ideal) V c).flushed 4 t = ((cfg0.win 4).blk t).view.read (Elt Ideal) (projArr V c) := by
  show (cfg0.win 4).cut (grid0.coords t) ((dat0 (F := Ideal) V c).after 4 t) = _
  rw [after_tile]
  funext j
  obtain ⟨p, q, rfl⟩ : ∃ (p : Fin 4096) (q : Fin 128), j = ix2 p q := ⟨j 0, j 1, eq_ix2 j⟩
  obtain ⟨-, -, -, -, -, e40, e41, -, -⟩ := index_facts t
  show k0_pay4 (F := Ideal) (xBlk V c t) (wBlk V c t) (bBlk V c t) (ix2 p q)
    = projArr V c (((cfg0.win 4).blk t).view.emb (ix2 p q))
  refine tile_eq_proj V c t p q _ ?_ ?_
  · show win0_4.index t (0 : Fin 2) * 4096 + 1 * p.val = t.val * 4096 + p.val; rw [e40]; omega
  · show win0_4.index t (1 : Fin 2) * 128 + 1 * q.val = q.val; rw [e41]; omega

/-- What point `t` writes back to the second row output is block `t` of the projection's squared row norms. -/
theorem flushed_norms (c : Dev nD) (t : Fin cfg0.N) :
    (dat0 (F := Ideal) V c).flushed 5 t
      = ((cfg0.win 5).blk t).view.read (Elt Ideal) (Cert.Spec.sqRow (projArr V c)) := by
  show (cfg0.win 5).cut (grid0.coords t) ((dat0 (F := Ideal) V c).after 5 t) = _
  rw [after_norms]
  funext j
  obtain ⟨p, u, rfl⟩ : ∃ (p : Fin 4096) (u : Fin 1), j = ix2 p u := ⟨j 0, j 1, eq_ix2 j⟩
  obtain ⟨-, -, -, -, -, -, -, e50, e51⟩ := index_facts t
  refine (norms_apply (xBlk V c t) (wBlk V c t) (bBlk V c t) p u).trans ?_
  show _ = ∑ e : Fin 128, projArr V c (ix2 ((((cfg0.win 5).blk t).view.emb (ix2 p u)) 0) e)
      * projArr V c (ix2 ((((cfg0.win 5).blk t).view.emb (ix2 p u)) 0) e)
  have row : ((((cfg0.win 5).blk t).view.emb (ix2 p u)) 0).val = t.val * 4096 + p.val := by
    show win0_5.index t (0 : Fin 2) * 4096 + 1 * p.val = t.val * 4096 + p.val; rw [e50]; omega
  refine Finset.sum_congr rfl fun e _ => ?_
  rw [tile_eq_proj V c t p e (ix2 ((((cfg0.win 5).blk t).view.emb (ix2 p u)) 0) e) row rfl]

/-- An index of the first row output is in point `t`'s block iff each coordinate is in the block's range. -/
theorem mem_tile_block (t : Fin cfg0.N) (i : S131072x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v1_0).slice (win0_4.rect t)).set ↔ _
  rw [View.set_slice_whole, Rect.mem_set_unit]
  exact Iff.rfl

/-- The same for the second row output. -/
theorem mem_norms_block (t : Fin cfg0.N) (i : S131072x1.Idx) :
    i ∈ ((cfg0.win 5).blk t).view.set ↔ ∀ a : Fin 2, win0_5.index t a * S4096x1.size a ≤ (i a).val
      ∧ (i a).val < win0_5.index t a * S4096x1.size a + S4096x1.size a := by
  show i ∈ ((View.whole main_v1_1).slice (win0_5.rect t)).set ↔ _
  rw [View.set_slice_whole, Rect.mem_set_unit]
  exact Iff.rfl

/-- Row `r` lies in the block of point `r / 4096`. -/
def pointOf (r : Fin 131072) : Fin cfg0.N := ⟨r.val / 4096, by have := r.isLt; rw [show cfg0.N = 32 from N_0]; omega⟩

/-- THE FIRST ROW OUTPUT after the region: the projection of the whole batch. -/
theorem arr4 (c : Dev nD) :
    (Gen.dat0 (F := Ideal) V c).arrAt 4 cfg0.N = Cert.Spec.proj (V c main_arg0) (V c main_arg2) (V c main_arg3) :=
  (dat0 (F := Ideal) V c).arrAt_eq_of_cover 4 (projArr V c) (fun t _ => flushed_tile V c t) fun i =>
    ⟨pointOf (i 0), flush0_4 _, by
      rw [mem_tile_block]
      obtain ⟨-, -, -, -, -, e40, e41, -, -⟩ := index_facts (pointOf (i 0))
      have h0 : (i 0).val < 131072 := (i 0).isLt
      have h1 : (i 1).val < 128 := (i 1).isLt
      intro a
      match a with
      | ⟨0, _⟩ =>
        show win0_4.index (pointOf (i 0)) (0 : Fin 2) * 4096 ≤ (i 0).val
          ∧ (i 0).val < win0_4.index (pointOf (i 0)) (0 : Fin 2) * 4096 + 4096
        rw [e40]; show (i 0).val / 4096 * 4096 ≤ (i 0).val ∧ (i 0).val < (i 0).val / 4096 * 4096 + 4096; omega
      | ⟨1, _⟩ =>
        show win0_4.index (pointOf (i 0)) (1 : Fin 2) * 128 ≤ (i 1).val
          ∧ (i 1).val < win0_4.index (pointOf (i 0)) (1 : Fin 2) * 128 + 128
        rw [e41]; omega⟩

/-- THE SECOND ROW OUTPUT after the region: the squared norm of every row of the projection. -/
theorem arr5 (c : Dev nD) :
    (Gen.dat0 (F := Ideal) V c).arrAt 5 cfg0.N
      = Cert.Spec.sqRow (Cert.Spec.proj (V c main_arg0) (V c main_arg2) (V c main_arg3)) :=
  (dat0 (F := Ideal) V c).arrAt_eq_of_cover 5 (Cert.Spec.sqRow (projArr V c)) (fun t _ => flushed_norms V c t) fun i =>
    ⟨pointOf (i 0), flush0_5 _, by
      rw [mem_norms_block]
      obtain ⟨-, -, -, -, -, -, -, e50, e51⟩ := index_facts (pointOf (i 0))
      have h0 : (i 0).val < 131072 := (i 0).isLt
      have h1 : (i 1).val < 1 := (i 1).isLt
      intro a
      match a with
      | ⟨0, _⟩ =>
        show win0_5.index (pointOf (i 0)) (0 : Fin 2) * 4096 ≤ (i 0).val
          ∧ (i 0).val < win0_5.index (pointOf (i 0)) (0 : Fin 2) * 4096 + 4096
        rw [e50]; show (i 0).val / 4096 * 4096 ≤ (i 0).val ∧ (i 0).val < (i 0).val / 4096 * 4096 + 4096; omega
      | ⟨1, _⟩ =>
        show win0_5.index (pointOf (i 0)) (1 : Fin 2) * 1 ≤ (i 1).val
          ∧ (i 1).val < win0_5.index (pointOf (i 0)) (1 : Fin 2) * 1 + 1
        rw [e51]; omega⟩

end Arrays

end Cert.KernelIdeal.Region0Rows

end
-- ==== Proof.Region0Acc.lean ====
/-
  Region 0 accumulates, per half of the batch, two blocks over its sixteen row tiles: the per-class sums of the
  projected rows and the per-class row counts.  Here the two accumulated arrays are read after the region, index
  by index: the block of half `h` is the zero block plus the sixteen tile contributions, and the double sum over
  tiles and rows inside a tile is the single sum over the 65536 rows of the half.
-/
import proofs.«420840_j11742440587416_3_alg».proof.Proof.Gen.KernelIdeal.Frame
import proofs.«420840_j11742440587416_3_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Region0Acc

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

section Pieces

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the class-sum block becomes what it held plus the tile's contribution. -/
theorem out6_B (c : Dev nD) (i : grid0.Coords) (a2 : Memref sig .tc .vmem S4096x512 .f32) (h2 : a2.IsWhole)
    (a3 : Memref sig .tc .vmem S4096x1 .i32) (h3 : a3.IsWhole) (a4 : Memref sig .tc .vmem S128x512 .f32) (h4 : a4.IsWhole)
    (a5 : Memref sig .tc .vmem S128 .f32) (h5 : a5.IsWhole) (a6 : Memref sig .tc .vmem S4096x128 .bf16) (h6 : a6.IsWhole)
    (a7 : Memref sig .tc .vmem S4096x1 .f32) (h7 : a7.IsWhole) (a8 : Memref sig .tc .vmem S1x64x128 .f32) (h8 : a8.IsWhole)
    (a9 : Memref sig .tc .vmem S1x64x128 .f32) (h9 : a9.IsWhole) (hc : ¬cond0_0 i)
    (x0 : Vec F S4096x512 .f32) (x1 : Vec F S4096x1 .i32) (x2 : Vec F S128x512 .f32) (x3 : Vec F S128 .f32)
    (xo6 : Vec F S1x64x128 .f32) (xo7 : Vec F S1x64x128 .f32) :
    out0_B_6 c i a2 h2 a3 h3 a4 h4 a5 h5 a6 h6 a7 h7 a8 h8 a9 h9 hc x0 x1 x2 x3 xo6 xo7 = k0_pay9 x0 x2 x3 x1 xo6 := by
  unfold out0_B_6
  rw [View.read_writes_eq_canon _ _ _ (cover0_B_6 c i a2 h2 a3 h3 a4 h4 a5 h5 a6 h6 a7 h7 a8 h8 a9 h9 hc x0 x1 x2 x3 xo6 xo7)]
  unfold kernelRun0_B
  dsimp only
  sl_unfold_words
  rw [View.canon_unit_zero hz3]
  simp only [View.readAt_eq_ld, h2.read_unread, h3.read_unread, h4.read_unread, h5.read_unread, h8.read_unread, h9.read_unread,
    View.ld_unit_zero (S := S4096x512) hz2, View.ld_unit_zero (S := S4096x1) hz2, View.ld_unit_zero (S := S128x512) hz2,
    View.ld_unit_zero (S := S128) hz1, View.ld_unit_zero (S := S1x64x128) hz3]

/-- A point that does not reset: the count block becomes what it held plus the tile's counts along the features. -/
theorem out7_B (c : Dev nD) (i : grid0.Coords) (a2 : Memref sig .tc .vmem S4096x512 .f32) (h2 : a2.IsWhole)
    (a3 : Memref sig .tc .vmem S4096x1 .i32) (h3 : a3.IsWhole) (a4 : Memref sig .tc .vmem S128x512 .f32) (h4 : a4.IsWhole)
    (a5 : Memref sig .tc .vmem S128 .f32) (h5 : a5.IsWhole) (a6 : Memref sig .tc .vmem S4096x128 .bf16) (h6 : a6.IsWhole)
    (a7 : Memref sig .tc .vmem S4096x1 .f32) (h7 : a7.IsWhole) (a8 : Memref sig .tc .vmem S1x64x128 .f32) (h8 : a8.IsWhole)
    (a9 : Memref sig .tc .vmem S1x64x128 .f32) (h9 : a9.IsWhole) (hc : ¬cond0_0 i)
    (x0 : Vec F S4096x512 .f32) (x1 : Vec F S4096x1 .i32) (x2 : Vec F S128x512 .f32) (x3 : Vec F S128 .f32)
    (xo6 : Vec F S1x64x128 .f32) (xo7 : Vec F S1x64x128 .f32) :
    out0_B_7 c i a2 h2 a3 h3 a4 h4 a5 h5 a6 h6 a7 h7 a8 h8 a9 h9 hc x0 x1 x2 x3 xo6 xo7 = k0_pay1 (k0_pay8 x1) xo7 := by
  unfold out0_B_7
  rw [View.read_writes_eq_canon _ _ _ (cover0_B_7 c i a2 h2 a3 h3 a4 h4 a5 h5 a6 h6 a7 h7 a8 h8 a9 h9 hc x0 x1 x2 x3 xo6 xo7)]
  unfold kernelRun0_B
  dsimp only
  sl_unfold_words
  rw [View.canon_unit_zero hz3]
  simp only [View.readAt_eq_ld, h2.read_unread, h3.read_unread, h4.read_unread, h5.read_unread, h8.read_unread, h9.read_unread,
    View.ld_unit_zero (S := S4096x512) hz2, View.ld_unit_zero (S := S4096x1) hz2, View.ld_unit_zero (S := S128x512) hz2,
    View.ld_unit_zero (S := S128) hz1, View.ld_unit_zero (S := S1x64x128) hz3]

/-- A point that resets: the class-sum block becomes the zero block plus the tile's contribution. -/
theorem out6_A (c : Dev nD) (i : grid0.Coords) (a2 : Memref sig .tc .vmem S4096x512 .f32) (h2 : a2.IsWhole)
    (a3 : Memref sig .tc .vmem S4096x1 .i32) (h3 : a3.IsWhole) (a4 : Memref sig .tc .vmem S128x512 .f32) (h4 : a4.IsWhole)
    (a5 : Memref sig .tc .vmem S128 .f32) (h5 : a5.IsWhole) (a6 : Memref sig .tc .vmem S4096x128 .bf16) (h6 : a6.IsWhole)
    (a7 : Memref sig .tc .vmem S4096x1 .f32) (h7 : a7.IsWhole) (a8 : Memref sig .tc .vmem S1x64x128 .f32) (h8 : a8.IsWhole)
    (a9 : Memref sig .tc .vmem S1x64x128 .f32) (h9 : a9.IsWhole) (hc : cond0_0 i)
    (x0 : Vec F S4096x512 .f32) (x1 : Vec F S4096x1 .i32) (x2 : Vec F S128x512 .f32) (x3 : Vec F S128 .f32) :
    out0_A_6 c i a2 h2 a3 h3 a4 h4 a5 h5 a6 h6 a7 h7 a8 h8 a9 h9 hc x0 x1 x2 x3 = k0_pay9 x0 x2 x3 x1 k0_pay2 := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S1x64x128) hz3, View.readCov_unit_zero (S := S1x64x128) _ hz3]
  simp only [View.readAt_eq_ld, h2.read_unread, h3.read_unread, h4.read_unread, h5.read_unread, h8.read_unread, h9.read_unread,
    View.ld_unit_zero (S := S4096x512) hz2, View.ld_unit_zero (S := S4096x1) hz2, View.ld_unit_zero (S := S128x512) hz2,
    View.ld_unit_zero (S := S128) hz1, View.ld_unit_zero (S := S1x64x128) hz3]

/-- A point that resets: the count block becomes the zero block plus the tile's counts along the features. -/
theorem out7_A (c : Dev nD) (i : grid0.Coords) (a2 : Memref sig .tc .vmem S4096x512 .f32) (h2 : a2.IsWhole)
    (a3 : Memref sig .tc .vmem S4096x1 .i32) (h3 : a3.IsWhole) (a4 : Memref sig .tc .vmem S128x512 .f32) (h4 : a4.IsWhole)
    (a5 : Memref sig .tc .vmem S128 .f32) (h5 : a5.IsWhole) (a6 : Memref sig .tc .vmem S4096x128 .bf16) (h6 : a6.IsWhole)
    (a7 : Memref sig .tc .vmem S4096x1 .f32) (h7 : a7.IsWhole) (a8 : Memref sig .tc .vmem S1x64x128 .f32) (h8 : a8.IsWhole)
    (a9 : Memref sig .tc .vmem S1x64x128 .f32) (h9 : a9.IsWhole) (hc : cond0_0 i)
    (x0 : Vec F S4096x512 .f32) (x1 : Vec F S4096x1 .i32) (x2 : Vec F S128x512 .f32) (x3 : Vec F S128 .f32) :
    out0_A_7 c i a2 h2 a3 h3 a4 h4 a5 h5 a6 h6 a7 h7 a8 h8 a9 h9 hc x0 x1 x2 x3 = k0_pay1 (k0_pay8 x1) k0_pay3 := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S1x64x128) hz3, View.readCov_unit_zero (S := S1x64x128) _ hz3]
  simp only [View.readAt_eq_ld, h2.read_unread, h3.read_unread, h4.read_unread, h5.read_unread, h8.read_unread, h9.read_unread,
    View.ld_unit_zero (S := S4096x512) hz2, View.ld_unit_zero (S := S4096x1) hz2, View.ld_unit_zero (S := S128x512) hz2,
    View.ld_unit_zero (S := S128) hz1, View.ld_unit_zero (S := S1x64x128) hz3]

end Pieces
section Payloads

/-! ## The body's arithmetic at an index, over the extended reals -/

/-- The comparison of two class words, widened and converted: one when they are equal, zero otherwise. -/
theorem hot_word (a b : BitVec 32) :
    (FloatOps.sitofp (F := Ideal) .f32 ((IntOp.cmpi .eq a b).setWidth 32) : EReal) = if a = b then 1 else 0 := by
  show (((BitVec.setWidth 32 (IntOp.cmpi .eq a b)).toInt : ℝ) : EReal) = _
  by_cases h : a = b
  · subst h
    rw [if_pos rfl]
    simp [IntOp.cmpi]
  · rw [if_neg h]
    have hb : (a == b) = false := by simpa using h
    simp [IntOp.cmpi, hb]

/-- The one-hot tile: row `p` of the tile against class `cc`. -/
theorem pay7_apply (x1 : Vec Ideal S4096x1 .i32) (p : Fin 4096) (cc : Fin 64) :
    k0_pay7 (F := Ideal) x1 (ix2 p cc) = if x1 (ix2 p 0) = BitVec.ofNat 32 cc.val then 1 else 0 := by
  have e1 : (broadcastTo S4096x64 (shapeCast S4096x1 x1 shapeCasts_S4096x1_S4096x1) broadcasts_S4096x1_S4096x64 : IVec S4096x64 32) (ix2 p cc)
      = x1 (ix2 p 0) := by
    rw [shapeCast_self]
    exact broadcastTo_apply x1 broadcasts_S4096x1_S4096x64 (ix2 p cc) (ix2 p 0) (fun a => by
      match a with
      | ⟨0, _⟩ => rfl
      | ⟨1, _⟩ => rfl)
  have e2 : (iota .tc S4096x64 32 [1] iota_S4096x64_d1_w32 : IVec S4096x64 32) (ix2 p cc) = BitVec.ofNat 32 cc.val :=
    iota_single_apply .tc S4096x64 32 1 iota_S4096x64_d1_w32 (ix2 p cc)
  unfold k0_pay7
  show (FloatOps.sitofp (F := Ideal) .f32 ((IntOp.cmpi .eq
      ((broadcastTo S4096x64 (shapeCast S4096x1 x1 shapeCasts_S4096x1_S4096x1) broadcasts_S4096x1_S4096x64 : IVec S4096x64 32) (ix2 p cc))
      ((iota .tc S4096x64 32 [1] iota_S4096x64_d1_w32 : IVec S4096x64 32) (ix2 p cc))).setWidth 32) : EReal) = _
  rw [e1, e2]
  exact hot_word _ _

/-- The operand indices of the contraction of the one-hot tile (transposed) with the projection tile. -/
theorem lhs9_0 (i : S64x128.Idx) (q : dot_S4096x64_S4096x128_S64x128_0_0_1_1_n_n.contr.Idx) :
    (dot_S4096x64_S4096x128_S64x128_0_0_1_1_n_n.lhsIdx i q 0).val = (q ⟨0, by decide⟩).val :=
  dot_S4096x64_S4096x128_S64x128_0_0_1_1_n_n.lhsIdx_val_of_single rfl i q
theorem lhs9_1 (i : S64x128.Idx) (q : dot_S4096x64_S4096x128_S64x128_0_0_1_1_n_n.contr.Idx) :
    (dot_S4096x64_S4096x128_S64x128_0_0_1_1_n_n.lhsIdx i q 1).val = (i 0).val := by
  unfold DotDims.lhsIdx
  rw [dif_neg (show ¬(1 : Fin S4096x64.rank) ∈ dot_S4096x64_S4096x128_S64x128_0_0_1_1_n_n.lhsBatch by decide), dif_pos (show (1 : Fin S4096x64.rank) ∈ dot_S4096x64_S4096x128_S64x128_0_0_1_1_n_n.lhsNonContracting by decide)]
  rfl
theorem rhs9_0 (i : S64x128.Idx) (q : dot_S4096x64_S4096x128_S64x128_0_0_1_1_n_n.contr.Idx) :
    (dot_S4096x64_S4096x128_S64x128_0_0_1_1_n_n.rhsIdx i q 0).val = (q ⟨0, by decide⟩).val :=
  dot_S4096x64_S4096x128_S64x128_0_0_1_1_n_n.rhsIdx_val_of_single rfl i q
theorem rhs9_1 (i : S64x128.Idx) (q : dot_S4096x64_S4096x128_S64x128_0_0_1_1_n_n.contr.Idx) :
    (dot_S4096x64_S4096x128_S64x128_0_0_1_1_n_n.rhsIdx i q 1).val = (i 1).val := by
  unfold DotDims.rhsIdx
  rw [dif_neg (show ¬(1 : Fin S4096x128.rank) ∈ dot_S4096x64_S4096x128_S64x128_0_0_1_1_n_n.rhsBatch by decide), dif_pos (show (1 : Fin S4096x128.rank) ∈ dot_S4096x64_S4096x128_S64x128_0_0_1_1_n_n.rhsNonContracting by decide)]
  rfl

/-- That contraction into the zero block, at class `cc` and feature `e`: the sum over the tile's rows. -/
theorem dot9_apply (l : FVec Ideal S4096x64 .f32) (r : FVec Ideal S4096x128 .f32) (cc : Fin 64) (e : Fin 128) :
    (matmul dot_S4096x64_S4096x128_S64x128_0_0_1_1_n_n none l r (constant S64x128 .f32 0x00000000#32) : FVec Ideal S64x128 .f32) (ix2 cc e)
      = ∑ p : Fin 4096, l (ix2 p cc) * r (ix2 p e) := by
  simp only [matmul]
  rw [Ideal.matmul_constant_zero_apply, ← Equiv.sum_comp (contrEquiv1 dot_S4096x64_S4096x128_S64x128_0_0_1_1_n_n 4096 rfl rfl).symm]
  refine Finset.sum_congr rfl fun k _ => ?_
  have hk := contrEquiv1_symm_val dot_S4096x64_S4096x128_S64x128_0_0_1_1_n_n 4096 rfl rfl k
  have el : dot_S4096x64_S4096x128_S64x128_0_0_1_1_n_n.lhsIdx (ix2 cc e) ((contrEquiv1 dot_S4096x64_S4096x128_S64x128_0_0_1_1_n_n 4096 rfl rfl).symm k) = ix2 k cc := funext fun a => Fin.ext (by
    match a with
    | ⟨0, _⟩ => exact (lhs9_0 _ _).trans hk
    | ⟨1, _⟩ => exact lhs9_1 _ _)
  have er : dot_S4096x64_S4096x128_S64x128_0_0_1_1_n_n.rhsIdx (ix2 cc e) ((contrEquiv1 dot_S4096x64_S4096x128_S64x128_0_0_1_1_n_n 4096 rfl rfl).symm k) = ix2 k e := funext fun a => Fin.ext (by
    match a with
    | ⟨0, _⟩ => exact (rhs9_0 _ _).trans hk
    | ⟨1, _⟩ => exact rhs9_1 _ _)
  rw [el, er]

/-- The accumulating payload at an index: what the block held plus the tile's contribution. -/
theorem pay9_apply (x0 : Vec Ideal S4096x512 .f32) (x2 : Vec Ideal S128x512 .f32) (x3 : Vec Ideal S128 .f32)
    (x1 : Vec Ideal S4096x1 .i32) (acc : Vec Ideal S1x64x128 .f32) (z : Fin 1) (cc : Fin 64) (e : Fin 128) :
    k0_pay9 (F := Ideal) x0 x2 x3 x1 acc (ix3 z cc e)
      = acc (ix3 z cc e) + ∑ p : Fin 4096, k0_pay7 (F := Ideal) x1 (ix2 p cc) * k0_pay4 (F := Ideal) x0 x2 x3 (ix2 p e) := by
  unfold k0_pay9
  show (shapeCast S1x64x128 acc shapeCasts_S1x64x128_S1x64x128 (ix3 z cc e) : EReal)
      + shapeCast S1x64x128 (matmul dot_S4096x64_S4096x128_S64x128_0_0_1_1_n_n none (k0_pay7 (F := Ideal) x1) (k0_pay4 (F := Ideal) x0 x2 x3)
          (constant S64x128 .f32 0x00000000#32) : FVec Ideal S64x128 .f32) shapeCasts_S64x128_S1x64x128 (ix3 z cc e) = _
  rw [shapeCast_self]
  refine congrArg (acc (ix3 z cc e) + ·) ?_
  refine (shapeCast_addUnit_apply ![64, 128] _ shapeCasts_S64x128_S1x64x128 (ix3 z cc e)).trans ?_
  have hi : (fun a : Fin 2 => (ix3 z cc e) a.succ) = ix2 cc e := funext fun a => by
    match a with
    | ⟨0, _⟩ => rfl
    | ⟨1, _⟩ => rfl
  rw [hi]
  exact dot9_apply _ _ cc e

/-- The operand indices of the projection's contraction over the 512 input features. -/
theorem lhs4_0 (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem lhs4_1 (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q
theorem rhs4_0 (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q
theorem rhs4_1 (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The projection's contraction into the zero block, at row `p` and feature `e`. -/
theorem dot4_apply (l : FVec Ideal S4096x512 .bf16) (r : FVec Ideal S512x128 .bf16) (p : Fin 4096) (e : Fin 128) :
    (matmul dot_S4096x512_S512x128_S4096x128_1_0_0_1_n_n none l r (constant S4096x128 .f32 0x00000000#32) : FVec Ideal S4096x128 .f32) (ix2 p e)
      = ∑ k : Fin 512, l (ix2 p k) * r (ix2 k e) := by
  simp only [matmul]
  rw [Ideal.matmul_constant_zero_apply, ← Equiv.sum_comp (contrEquiv1 dot_S4096x512_S512x128_S4096x128_1_0_0_1_n_n 512 rfl rfl).symm]
  refine Finset.sum_congr rfl fun k _ => ?_
  have hk := contrEquiv1_symm_val dot_S4096x512_S512x128_S4096x128_1_0_0_1_n_n 512 rfl rfl k
  have el : dot_S4096x512_S512x128_S4096x128_1_0_0_1_n_n.lhsIdx (ix2 p e) ((contrEquiv1 dot_S4096x512_S512x128_S4096x128_1_0_0_1_n_n 512 rfl rfl).symm k) = ix2 p k := funext fun a => Fin.ext (by
    match a with
    | ⟨0, _⟩ => exact lhs4_0 _ _
    | ⟨1, _⟩ => exact (lhs4_1 _ _).trans hk)
  have er : dot_S4096x512_S512x128_S4096x128_1_0_0_1_n_n.rhsIdx (ix2 p e) ((contrEquiv1 dot_S4096x512_S512x128_S4096x128_1_0_0_1_n_n 512 rfl rfl).symm k) = ix2 k e := funext fun a => Fin.ext (by
    match a with
    | ⟨0, _⟩ => exact (rhs4_0 _ _).trans hk
    | ⟨1, _⟩ => exact rhs4_1 _ _)
  rw [el, er]

/-- The projection tile at row `p` of the tile and feature `e`. -/
theorem pay4_apply (x0 : Vec Ideal S4096x512 .f32) (x2 : Vec Ideal S128x512 .f32) (x3 : Vec Ideal S128 .f32)
    (p : Fin 4096) (e : Fin 128) :
    k0_pay4 (F := Ideal) x0 x2 x3 (ix2 p e) = (∑ k : Fin 512, x0 (ix2 p k) * x2 (ix2 e k)) + x3 (ix1 e) := by
  unfold k0_pay4
  show ((matmul dot_S4096x512_S512x128_S4096x128_1_0_0_1_n_n none (truncf .bf16 x0 bitsLt_bf16_f32 : FVec Ideal S4096x512 .bf16)
          (transpose S512x128 [1, 0] (truncf .bf16 x2 bitsLt_bf16_f32 : FVec Ideal S128x512 .bf16) transposes_S128x512_p1_0_S512x128)
          (constant S4096x128 .f32 0x00000000#32) : FVec Ideal S4096x128 .f32) (ix2 p e) : EReal)
      + (broadcastTo S4096x128 (shapeCast S1x128 x3 shapeCasts_S128_S1x128) broadcasts_S1x128_S4096x128 : FVec Ideal S4096x128 .f32) (ix2 p e) = _
  congr 1
  · refine (dot4_apply _ _ p e).trans (Finset.sum_congr rfl fun k _ => ?_)
    refine congrArg (x0 (ix2 p k) * ·) ?_
    exact transpose_apply [1, 0] (truncf .bf16 x2 bitsLt_bf16_f32 : FVec Ideal S128x512 .bf16) transposes_S128x512_p1_0_S512x128
      (ix2 k e) (ix2 e k) (fun b => by
        match b with
        | ⟨0, _⟩ => rfl
        | ⟨1, _⟩ => rfl)
  · refine (broadcastTo_apply (shapeCast S1x128 x3 shapeCasts_S128_S1x128) broadcasts_S1x128_S4096x128 (ix2 p e) (ix2 (0 : Fin 1) e) (fun a => by
        match a with
        | ⟨0, _⟩ => rfl
        | ⟨1, _⟩ => rfl)).trans ?_
    refine (shapeCast_addUnit_apply ![128] x3 shapeCasts_S128_S1x128 (ix2 (0 : Fin 1) e)).trans ?_
    exact congrArg x3 (funext fun a => by
      match a with
      | ⟨0, _⟩ => rfl)

/-- The tile's counts: the column sums of the one-hot tile. -/
theorem pay8_apply (x1 : Vec Ideal S4096x1 .i32) (cc : Fin 64) :
    k0_pay8 (F := Ideal) x1 (ix1 cc) = ∑ p : Fin 4096, k0_pay7 (F := Ideal) x1 (ix2 p cc) := by
  unfold k0_pay8
  refine (Ideal.multiReduction_add_single (k0_pay7 (F := Ideal) x1) 0x00000000#32 reduces_S4096x64_S64 (.inl rfl) rfl (ix1 cc)).trans ?_
  refine Finset.sum_congr rfl fun p _ => ?_
  exact congrArg (k0_pay7 (F := Ideal) x1) (funext fun a => Fin.ext (by
    match a with
    | ⟨0, _⟩ => rfl
    | ⟨1, _⟩ => rfl))

/-- The count payload at an index: what the block held plus the counts of the tile, whatever the feature. -/
theorem pay1_apply (v27 : FVec Ideal S64 .f32) (acc : Vec Ideal S1x64x128 .f32) (z : Fin 1) (cc : Fin 64) (e : Fin 128) :
    k0_pay1 (F := Ideal) v27 acc (ix3 z cc e) = acc (ix3 z cc e) + v27 (ix1 cc) := by
  unfold k0_pay1
  show (shapeCast S1x64x128 acc shapeCasts_S1x64x128_S1x64x128 (ix3 z cc e) : EReal)
      + (broadcastTo S1x64x128 (shapeCast S1x64x1 (shapeCast S1x64x1 v27 shapeCasts_S64_S1x64x1) shapeCasts_S1x64x1_S1x64x1)
          broadcasts_S1x64x1_S1x64x128 : FVec Ideal S1x64x128 .f32) (ix3 z cc e) = _
  rw [shapeCast_self, shapeCast_self]
  refine congrArg (acc (ix3 z cc e) + ·) ?_
  refine (broadcastTo_apply (shapeCast S1x64x1 v27 shapeCasts_S64_S1x64x1) broadcasts_S1x64x1_S1x64x128 (ix3 z cc e)
    (ix3 (0 : Fin 1) cc (0 : Fin 1)) (fun a => by
      match a with
      | ⟨0, _⟩ => rfl
      | ⟨1, _⟩ => rfl
      | ⟨2, _⟩ => rfl)).trans ?_
  exact shapeCast_apply v27 shapeCasts_S64_S1x64x1 (ix3 (0 : Fin 1) cc (0 : Fin 1)) (ix1 cc) (by
    rw [Shape.rowMajor_val_one, Shape.rowMajor_val_three]
    show cc.val = ((0 : Fin 1).val * 64 + cc.val) * 1 + (0 : Fin 1).val
    simp)

end Payloads
section Blocks

variable (V : (c : Dev nD) → (b : Ref sig .tc) → Buf (Elt Ideal) ((c : Thread nD τ).loc b))

/-- The four input blocks at a point, at their literal types. -/
abbrev xblk (c : Dev nD) (t : Fin cfg0.N) : Vec Ideal S4096x512 .f32 := iblk0 V c 0 t
abbrev yblk (c : Dev nD) (t : Fin cfg0.N) : Vec Ideal S4096x1 .i32 := iblk0 V c 1 t
abbrev wblk (c : Dev nD) (t : Fin cfg0.N) : Vec Ideal S128x512 .f32 := iblk0 V c 2 t
abbrev bblk (c : Dev nD) (t : Fin cfg0.N) : Vec Ideal S128 .f32 := iblk0 V c 3 t

/-- The arrays the region reads, at their literal types. -/
abbrev xarr (c : Dev nD) : S131072x512.Idx → EReal := V c main_arg0
abbrev yarr (c : Dev nD) : S131072x1.Idx → BitVec 32 := V c main_v0
abbrev warr (c : Dev nD) : S128x512.Idx → EReal := V c main_arg2
abbrev barr (c : Dev nD) : S128.Idx → EReal := V c main_arg3

/-- The block indices of the four input windows, decided over the grid: tile `t` of the rows; the whole weights
    and bias. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

theorem lt32 (t : Fin cfg0.N) : t.val < 32 := lt_of_lt_of_eq t.isLt (show cfg0.N = 32 from N_0)

/-- Row `p` of tile `t` is row `4096·t + p` of the batch. -/
theorem xblk_apply (c : Dev nD) (t : Fin cfg0.N) (p : Fin 4096) (k : Fin 512) (r : Fin 131072) (hr : r.val = 4096 * t.val + p.val) :
    xblk V c t (ix2 p k) = xarr V c (ix2 r k) := by
  obtain ⟨e0, e1, -⟩ := idx_in t
  unfold xblk iblk0
  rw [View.read_apply]
  show V c main_arg0 _ = V c main_arg0 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 512 + 1 * k.val = k.val; rw [e1]; omega

theorem yblk_apply (c : Dev nD) (t : Fin cfg0.N) (p : Fin 4096) (r : Fin 131072) (hr : r.val = 4096 * t.val + p.val) :
    yblk V c t (ix2 p (0 : Fin 1)) = yarr V c (ix2 r (0 : Fin 1)) := by
  obtain ⟨-, -, e0, e1, -⟩ := idx_in t
  unfold yblk iblk0
  rw [View.read_apply]
  show V c main_v0 _ = V c main_v0 _
  congr 1
  funext a
  apply Fin.ext
  match a with
  | ⟨0, _⟩ => show win0_1.index t (0 : Fin 2) * 4096 + 1 * p.val = r.val; rw [e0, hr]; omega
  | ⟨1, _⟩ => show win0_1.index t (1 : Fin 2) * 1 + 1 * (0 : Fin 1).val = (0 : Fin 1).val; rw [e1]; rfl

theorem wblk_apply (c : Dev nD) (t : Fin cfg0.N) (e : Fin 128) (k : Fin 512) :
    wblk V c t (ix2 e k) = warr V c (ix2 e k) := by
  obtain ⟨-, -, -, -, e0, e1, -⟩ := idx_in t
  unfold wblk iblk0
  rw [View.read_apply]
  show V c main_arg2 _ = V c main_arg2 _
  congr 1
  funext a
  apply Fin.ext
  match a with
  | ⟨0, _⟩ => show win0_2.index t (0 : Fin 2) * 128 + 1 * e.val = e.val; rw [e0]; omega
  | ⟨1, _⟩ => show win0_2.index t (1 : Fin 2) * 512 + 1 * k.val = k.val; rw [e1]; omega

theorem bblk_apply (c : Dev nD) (t : Fin cfg0.N) (e : Fin 128) :
    bblk V c t (ix1 e) = barr V c (ix1 e) := by
  obtain ⟨-, -, -, -, -, -, e0⟩ := idx_in t
  unfold bblk iblk0
  rw [View.read_apply]
  show V c main_arg3 _ = V c main_arg3 _
  congr 1
  funext a
  apply Fin.ext
  match a with
  | ⟨0, _⟩ => show win0_3.index t (0 : Fin 1) * 128 + 1 * e.val = e.val; rw [e0]; omega

end Blocks
section Fold

variable (V : (c : Dev nD) → (b : Ref sig .tc) → Buf (Elt Ideal) ((c : Thread nD τ).loc b))

/-- The summand of a class sum at batch row `r`, for every natural `r` (zero past the batch). -/
def sumTerm (y : (⟨1, ![131072]⟩ : Shape).Idx → BitVec 32) (P : (⟨2, ![131072, 128]⟩ : Shape).Idx → EReal)
    (cc : Fin 64) (e : Fin 128) (r : ℕ) : EReal :=
  if h : r < 131072 then Cert.Spec.hot y ⟨r, h⟩ cc * P (ix2 ⟨r, h⟩ e) else 0

/-- The summand of a class count at batch row `r`. -/
def cntTerm (y : (⟨1, ![131072]⟩ : Shape).Idx → BitVec 32) (cc : Fin 64) (r : ℕ) : EReal :=
  if h : r < 131072 then Cert.Spec.hot y ⟨r, h⟩ cc else 0

/-- The class words and the projection the region computes with, as the specification names them. -/
abbrev yv (c : Dev nD) : (⟨1, ![131072]⟩ : Shape).Idx → BitVec 32 := Cert.Spec.col (yarr V c)
abbrev Pv (c : Dev nD) : (⟨2, ![131072, 128]⟩ : Shape).Idx → EReal := Cert.Spec.proj (xarr V c) (warr V c) (barr V c)

/-- One entry of the one-hot tile at point `t` is the membership of the batch row it stands for. -/
theorem hot_tile (c : Dev nD) (t : Fin cfg0.N) (p : Fin 4096) (cc : Fin 64) (h : 4096 * t.val + p.val < 131072) :
    k0_pay7 (F := Ideal) (yblk V c t) (ix2 p cc) = Cert.Spec.hot (yv V c) ⟨4096 * t.val + p.val, h⟩ cc := by
  rw [pay7_apply, yblk_apply V c t p ⟨4096 * t.val + p.val, h⟩ rfl]
  rfl

/-- One entry of the projection tile at point `t` is the projection of the batch row it stands for. -/
theorem proj_tile (c : Dev nD) (t : Fin cfg0.N) (p : Fin 4096) (e : Fin 128) (h : 4096 * t.val + p.val < 131072) :
    k0_pay4 (F := Ideal) (xblk V c t) (wblk V c t) (bblk V c t) (ix2 p e) = Pv V c (ix2 ⟨4096 * t.val + p.val, h⟩ e) := by
  rw [pay4_apply, bblk_apply]
  show _ = (∑ k : Fin 512, xarr V c (ix2 ⟨4096 * t.val + p.val, h⟩ k) * warr V c (ix2 e k)) + barr V c (ix1 e)
  refine congrArg (· + barr V c (ix1 e)) (Finset.sum_congr rfl fun k _ => ?_)
  rw [xblk_apply V c t p k ⟨4096 * t.val + p.val, h⟩ rfl, wblk_apply]

/-- The class-sum payload at point `t`: what the block held plus the tile's rows of the class sum. -/
theorem sum_tile (c : Dev nD) (t : Fin cfg0.N) (acc : Vec Ideal S1x64x128 .f32) (z : Fin 1) (cc : Fin 64) (e : Fin 128) :
    k0_pay9 (F := Ideal) (xblk V c t) (wblk V c t) (bblk V c t) (yblk V c t) acc (ix3 z cc e)
      = acc (ix3 z cc e) + ∑ p : Fin 4096, sumTerm (yv V c) (Pv V c) cc e (4096 * t.val + p.val) := by
  have ht := lt32 t
  rw [pay9_apply]
  refine congrArg (acc (ix3 z cc e) + ·) (Finset.sum_congr rfl fun p _ => ?_)
  have h : 4096 * t.val + p.val < 131072 := by have := p.isLt; omega
  unfold sumTerm
  rw [dif_pos h, hot_tile V c t p cc h, proj_tile V c t p e h]

/-- The count payload at point `t`: what the block held plus the tile's rows of the class count. -/
theorem cnt_tile (c : Dev nD) (t : Fin cfg0.N) (acc : Vec Ideal S1x64x128 .f32) (z : Fin 1) (cc : Fin 64) (e : Fin 128) :
    k0_pay1 (F := Ideal) (k0_pay8 (F := Ideal) (yblk V c t)) acc (ix3 z cc e)
      = acc (ix3 z cc e) + ∑ p : Fin 4096, cntTerm (yv V c) cc (4096 * t.val + p.val) := by
  have ht := lt32 t
  rw [pay1_apply, pay8_apply]
  refine congrArg (acc (ix3 z cc e) + ·) (Finset.sum_congr rfl fun p _ => ?_)
  have h : 4096 * t.val + p.val < 131072 := by have := p.isLt; omega
  unfold cntTerm
  rw [dif_pos h, hot_tile V c t p cc h]

end Fold
section Acc

variable (V : (c : Dev nD) → (b : Ref sig .tc) → Buf (Elt Ideal) ((c : Thread nD τ).loc b))

/-- What the two accumulated blocks hold after point `n`. -/
def sums (c : Dev nD) (n : ℕ) (h : n < cfg0.N) : S1x64x128.Idx → EReal := (outsAt0 V c n h).2.2.1
def cnts (c : Dev nD) (n : ℕ) (h : n < cfg0.N) : S1x64x128.Idx → EReal := (outsAt0 V c n h).2.2.2

/-- The reset value (the zero block plus the tile's contribution) and the step (what the point before left plus
    the tile's contribution), for the class sums and for the counts. -/
def sumReset (c : Dev nD) (n : ℕ) (h : n < cfg0.N) : S1x64x128.Idx → EReal :=
  k0_pay9 (F := Ideal) (xblk V c ⟨n, h⟩) (wblk V c ⟨n, h⟩) (bblk V c ⟨n, h⟩) (yblk V c ⟨n, h⟩) (k0_pay2 (F := Ideal))
def sumStep (c : Dev nD) (n : ℕ) (h : n < cfg0.N) (acc : S1x64x128.Idx → EReal) : S1x64x128.Idx → EReal :=
  k0_pay9 (F := Ideal) (xblk V c ⟨n, h⟩) (wblk V c ⟨n, h⟩) (bblk V c ⟨n, h⟩) (yblk V c ⟨n, h⟩) acc
def cntReset (c : Dev nD) (n : ℕ) (h : n < cfg0.N) : S1x64x128.Idx → EReal :=
  k0_pay1 (F := Ideal) (k0_pay8 (F := Ideal) (yblk V c ⟨n, h⟩)) (k0_pay3 (F := Ideal))
def cntStep (c : Dev nD) (n : ℕ) (h : n < cfg0.N) (acc : S1x64x128.Idx → EReal) : S1x64x128.Idx → EReal :=
  k0_pay1 (F := Ideal) (k0_pay8 (F := Ideal) (yblk V c ⟨n, h⟩)) acc

theorem sums_reset (c : Dev nD) (n : ℕ) (h : n < cfg0.N) (h0 : n % 16 = 0) : sums V c n h = sumReset V c n h := by
  unfold sums sumReset
  rw [outsAt0_A V c ⟨n, h⟩ h0]
  dsimp only
  exact out6_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩)

theorem cnts_reset (c : Dev nD) (n : ℕ) (h : n < cfg0.N) (h0 : n % 16 = 0) : cnts V c n h = cntReset V c n h := by
  unfold cnts cntReset
  rw [outsAt0_A V c ⟨n, h⟩ h0]
  dsimp only
  exact out7_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩)

theorem sums_step (c : Dev nD) (n : ℕ) (h : n + 1 < cfg0.N) (hB : ¬(n + 1) % 16 = 0) :
    sums V c (n + 1) h = sumStep V c (n + 1) h (sums V c n (Nat.lt_of_succ_lt h)) := by
  unfold sums sumStep
  rw [outsAt0_B V c ⟨n + 1, h⟩ hB]
  dsimp only
  exact out6_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hc => hB ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩)
    (outsAt0 V c n (Nat.lt_of_succ_lt h)).2.2.1 (outsAt0 V c n (Nat.lt_of_succ_lt h)).2.2.2

theorem cnts_step (c : Dev nD) (n : ℕ) (h : n + 1 < cfg0.N) (hB : ¬(n + 1) % 16 = 0) :
    cnts V c (n + 1) h = cntStep V c (n + 1) h (cnts V c n (Nat.lt_of_succ_lt h)) := by
  unfold cnts cntStep
  rw [outsAt0_B V c ⟨n + 1, h⟩ hB]
  dsimp only
  exact out7_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hc => hB ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩)
    (outsAt0 V c n (Nat.lt_of_succ_lt h)).2.2.1 (outsAt0 V c n (Nat.lt_of_succ_lt h)).2.2.2

end Acc
section Halves

variable (V : (c : Dev nD) → (b : Ref sig .tc) → Buf (Elt Ideal) ((c : Thread nD τ).loc b))

/-- Sixteen tiles of 4096 rows are the 65536 rows of a half, in order. -/
theorem sum_tile_rows {M : Type*} [AddCommMonoid M] (g : ℕ → M) :
    ∑ s : Fin 16, ∑ p : Fin 4096, g (4096 * s.val + p.val) = ∑ r : Fin 65536, g r.val := by
  rw [← Fintype.sum_prod_type (f := fun x : Fin 16 × Fin 4096 => g (4096 * x.1.val + x.2.val))]
  refine Fintype.sum_equiv (finProdFinEquiv.trans (finCongr (by norm_num))) _ _ (fun x => ?_)
  refine congrArg g ?_
  show 4096 * x.1.val + x.2.val = x.2.val + 4096 * x.1.val
  omega

/-- The class-sum block when half `q` is written back: the class sums over the rows of that half. -/
theorem sums_flush (c : Dev nD) (q : ℕ) (h : 16 * q + 15 < cfg0.N) (z : Fin 1) (cc : Fin 64) (e : Fin 128) :
    sums V c (16 * q + 15) h (ix3 z cc e) = ∑ r : Fin 65536, sumTerm (yv V c) (Pv V c) cc e (65536 * q + r.val) := by
  rw [Pipeline.eq_accAt (sums V c) 16 (sumReset V c) (sumStep V c) (fun n h h0 => sums_reset V c n h h0)
    (fun n h hB => sums_step V c n h hB) q 15 (by decide) h]
  rw [Pipeline.accAt_add_apply (sumReset V c) (sumStep V c) (fun _ => 0)
    (fun n i => ∑ p : Fin 4096, sumTerm (yv V c) (Pv V c) (i 1) (i 2) (4096 * n + p.val)) (16 * q) 15
    (fun h i => by
      obtain ⟨z, cc, e, rfl⟩ : ∃ (z : Fin 1) (cc : Fin 64) (e : Fin 128), i = ix3 z cc e := ⟨i 0, i 1, i 2, eq_ix3 i⟩
      refine (sum_tile V c ⟨16 * q, h⟩ (k0_pay2 (F := Ideal)) z cc e).trans ?_
      refine congrArg (· + _) ?_
      exact Ideal.ofBits_zero_f32)
    (fun n h acc i _ _ => by
      obtain ⟨z, cc, e, rfl⟩ : ∃ (z : Fin 1) (cc : Fin 64) (e : Fin 128), i = ix3 z cc e := ⟨i 0, i 1, i 2, eq_ix3 i⟩
      exact sum_tile V c ⟨n, h⟩ acc z cc e)
    15 le_rfl h (ix3 z cc e)]
  rw [zero_add, Finset.sum_range]
  refine Eq.trans (Finset.sum_congr rfl fun s _ => Finset.sum_congr rfl fun p _ => ?_)
    (sum_tile_rows (fun r => sumTerm (yv V c) (Pv V c) cc e (65536 * q + r)))
  show sumTerm (yv V c) (Pv V c) cc e (4096 * (16 * q + s.val) + p.val) = sumTerm (yv V c) (Pv V c) cc e (65536 * q + (4096 * s.val + p.val))
  refine congrArg (sumTerm (yv V c) (Pv V c) cc e) ?_
  omega

/-- The count block when half `q` is written back: the class counts over the rows of that half. -/
theorem cnts_flush (c : Dev nD) (q : ℕ) (h : 16 * q + 15 < cfg0.N) (z : Fin 1) (cc : Fin 64) (e : Fin 128) :
    cnts V c (16 * q + 15) h (ix3 z cc e) = ∑ r : Fin 65536, cntTerm (yv V c) cc (65536 * q + r.val) := by
  rw [Pipeline.eq_accAt (cnts V c) 16 (cntReset V c) (cntStep V c) (fun n h h0 => cnts_reset V c n h h0)
    (fun n h hB => cnts_step V c n h hB) q 15 (by decide) h]
  rw [Pipeline.accAt_add_apply (cntReset V c) (cntStep V c) (fun _ => 0)
    (fun n i => ∑ p : Fin 4096, cntTerm (yv V c) (i 1) (4096 * n + p.val)) (16 * q) 15
    (fun h i => by
      obtain ⟨z, cc, e, rfl⟩ : ∃ (z : Fin 1) (cc : Fin 64) (e : Fin 128), i = ix3 z cc e := ⟨i 0, i 1, i 2, eq_ix3 i⟩
      refine (cnt_tile V c ⟨16 * q, h⟩ (k0_pay3 (F := Ideal)) z cc e).trans ?_
      refine congrArg (· + _) ?_
      exact Ideal.ofBits_zero_f32)
    (fun n h acc i _ _ => by
      obtain ⟨z, cc, e, rfl⟩ : ∃ (z : Fin 1) (cc : Fin 64) (e : Fin 128), i = ix3 z cc e := ⟨i 0, i 1, i 2, eq_ix3 i⟩
      exact cnt_tile V c ⟨n, h⟩ acc z cc e)
    15 le_rfl h (ix3 z cc e)]
  rw [zero_add, Finset.sum_range]
  refine Eq.trans (Finset.sum_congr rfl fun s _ => Finset.sum_congr rfl fun p _ => ?_)
    (sum_tile_rows (fun r => cntTerm (yv V c) cc (65536 * q + r)))
  show cntTerm (yv V c) cc (4096 * (16 * q + s.val) + p.val) = cntTerm (yv V c) cc (65536 * q + (4096 * s.val + p.val))
  refine congrArg (cntTerm (yv V c) cc) ?_
  omega

end Halves
section Arrays

variable (V : (c : Dev nD) → (b : Ref sig .tc) → Buf (Elt Ideal) ((c : Thread nD τ).loc b))

/-- The block indices of the two accumulated windows, decided over the grid: the half of the batch. -/
theorem idx_out : ∀ t : Fin cfg0.N, win0_6.index t (0 : Fin 3) = t.val / 16 ∧ win0_6.index t (1 : Fin 3) = 0
    ∧ win0_6.index t (2 : Fin 3) = 0
    ∧ win0_7.index t (0 : Fin 3) = t.val / 16 ∧ win0_7.index t (1 : Fin 3) = 0 ∧ win0_7.index t (2 : Fin 3) = 0 :=
  (by decide +kernel : ∀ t : Fin grid0.N, _)

theorem lt_N {n : ℕ} (h : n < 32) : n < cfg0.N := lt_of_lt_of_eq h (show (32 : ℕ) = cfg0.N from N_0.symm)

/-- A class sum over a half, as the sum of the row summands. -/
theorem halfSum_apply (y : (⟨1, ![131072]⟩ : Shape).Idx → BitVec 32) (P : (⟨2, ![131072, 128]⟩ : Shape).Idx → EReal)
    (q : Fin 2) (cc : Fin 64) (e : Fin 128) :
    Cert.Spec.halfSum y P (ix3 q cc e) = ∑ r : Fin 65536, sumTerm y P cc e (65536 * q.val + r.val) := by
  unfold Cert.Spec.halfSum
  refine Finset.sum_congr rfl fun r _ => ?_
  unfold sumTerm
  rw [dif_pos (by have := q.isLt; have := r.isLt; omega)]
  rfl

theorem halfCount_apply (y : (⟨1, ![131072]⟩ : Shape).Idx → BitVec 32) (q : Fin 2) (cc : Fin 64) (e : Fin 128) :
    Cert.Spec.halfCount y (ix3 q cc e) = ∑ r : Fin 65536, cntTerm y cc (65536 * q.val + r.val) := by
  unfold Cert.Spec.halfCount
  refine Finset.sum_congr rfl fun r _ => ?_
  unfold cntTerm
  rw [dif_pos (by have := q.isLt; have := r.isLt; omega)]
  rfl

/-- What a write-back of window 6 writes is its block of the class sums by halves. -/
theorem flushed6_eq (c : Dev nD) (t : Fin cfg0.N) (hf : (cfg0.win 6).flush t = true) :
    (dat0 V c).flushed 6 t = ((cfg0.win 6).blk t).view.read (Elt Ideal) (Cert.Spec.halfSum (yv V c) (Pv V c)) := by
  have ht := lt32 t
  have h15 : t.val % 16 = 15 := (flush0_6 t).mp hf
  obtain ⟨e0, e1, e2, -⟩ := idx_out t
  have hX : ∀ (z : Fin 1) (cc : Fin 64) (e : Fin 128),
      ((outsAt0 V c t.val t.isLt).2.2.1 : S1x64x128.Idx → EReal) (ix3 z cc e)
        = ∑ r : Fin 65536, sumTerm (yv V c) (Pv V c) cc e (65536 * (t.val / 16) + r.val) := by
    intro z cc e
    have same : ∀ (u : ℕ) (hu : u < cfg0.N), u = t.val → sums V c u hu = (outsAt0 V c t.val t.isLt).2.2.1 :=
      fun u hu e => by subst e; rfl
    rw [← same (16 * (t.val / 16) + 15) (lt_N (by omega)) (by omega)]
    exact sums_flush V c (t.val / 16) (lt_N (by omega)) z cc e
  have hG : ∀ (q : Fin 2) (cc : Fin 64) (e : Fin 128),
      (Cert.Spec.halfSum (yv V c) (Pv V c) : S2x64x128.Idx → EReal) (ix3 q cc e) = ∑ r : Fin 65536, sumTerm (yv V c) (Pv V c) cc e (65536 * q.val + r.val) :=
    fun q cc e => halfSum_apply _ _ q cc e
  show (cfg0.win 6).cut (grid0.coords t) ((dat0 V c).after 6 t) = _
  rw [after0_6]
  generalize (outsAt0 V c t.val t.isLt).2.2.1 = X at hX ⊢
  generalize Cert.Spec.halfSum (yv V c) (Pv V c) = G at hG ⊢
  refine funext fun (j : S1x64x128.Idx) => ?_
  obtain ⟨z, cc, e, rfl⟩ : ∃ (z : Fin 1) (cc : Fin 64) (e : Fin 128), j = ix3 z cc e := ⟨j 0, j 1, j 2, eq_ix3 j⟩
  have hemb : ((cfg0.win 6).blk t).view.emb (ix3 z cc e) = (ix3 (⟨t.val / 16, by omega⟩ : Fin 2) cc e : S2x64x128.Idx) := by
    funext a
    apply Fin.ext
    match a with
    | ⟨0, _⟩ => show win0_6.index t (0 : Fin 3) * 1 + 1 * z.val = t.val / 16; rw [e0]; have := z.isLt; omega
    | ⟨1, _⟩ => show win0_6.index t (1 : Fin 3) * 64 + 1 * cc.val = cc.val; rw [e1]; omega
    | ⟨2, _⟩ => show win0_6.index t (2 : Fin 3) * 128 + 1 * e.val = e.val; rw [e2]; omega
  rw [View.read_apply, hemb]
  show X (ix3 z cc e) = G (ix3 (⟨t.val / 16, by omega⟩ : Fin 2) cc e)
  rw [hX, hG]

/-- What a write-back of window 7 writes is its block of the class counts by halves. -/
theorem flushed7_eq (c : Dev nD) (t : Fin cfg0.N) (hf : (cfg0.win 7).flush t = true) :
    (dat0 V c).flushed 7 t = ((cfg0.win 7).blk t).view.read (Elt Ideal) (Cert.Spec.halfCount (yv V c)) := by
  have ht := lt32 t
  have h15 : t.val % 16 = 15 := (flush0_7 t).mp hf
  obtain ⟨-, -, -, e0, e1, e2⟩ := idx_out t
  have hX : ∀ (z : Fin 1) (cc : Fin 64) (e : Fin 128),
      ((outsAt0 V c t.val t.isLt).2.2.2 : S1x64x128.Idx → EReal) (ix3 z cc e)
        = ∑ r : Fin 65536, cntTerm (yv V c) cc (65536 * (t.val / 16) + r.val) := by
    intro z cc e
    have same : ∀ (u : ℕ) (hu : u < cfg0.N), u = t.val → cnts V c u hu = (outsAt0 V c t.val t.isLt).2.2.2 :=
      fun u hu e => by subst e; rfl
    rw [← same (16 * (t.val / 16) + 15) (lt_N (by omega)) (by omega)]
    exact cnts_flush V c (t.val / 16) (lt_N (by omega)) z cc e
  have hG : ∀ (q : Fin 2) (cc : Fin 64) (e : Fin 128),
      (Cert.Spec.halfCount (yv V c) : S2x64x128.Idx → EReal) (ix3 q cc e) = ∑ r : Fin 65536, cntTerm (yv V c) cc (65536 * q.val + r.val) :=
    fun q cc e => halfCount_apply _ q cc e
  show (cfg0.win 7).cut (grid0.coords t) ((dat0 V c).after 7 t) = _
  rw [after0_7]
  generalize (outsAt0 V c t.val t.isLt).2.2.2 = X at hX ⊢
  generalize Cert.Spec.halfCount (yv V c) = G at hG ⊢
  refine funext fun (j : S1x64x128.Idx) => ?_
  obtain ⟨z, cc, e, rfl⟩ : ∃ (z : Fin 1) (cc : Fin 64) (e : Fin 128), j = ix3 z cc e := ⟨j 0, j 1, j 2, eq_ix3 j⟩
  have hemb : ((cfg0.win 7).blk t).view.emb (ix3 z cc e) = (ix3 (⟨t.val / 16, by omega⟩ : Fin 2) cc e : S2x64x128.Idx) := by
    funext a
    apply Fin.ext
    match a with
    | ⟨0, _⟩ => show win0_7.index t (0 : Fin 3) * 1 + 1 * z.val = t.val / 16; rw [e0]; have := z.isLt; omega
    | ⟨1, _⟩ => show win0_7.index t (1 : Fin 3) * 64 + 1 * cc.val = cc.val; rw [e1]; omega
    | ⟨2, _⟩ => show win0_7.index t (2 : Fin 3) * 128 + 1 * e.val = e.val; rw [e2]; omega
  rw [View.read_apply, hemb]
  show X (ix3 z cc e) = G (ix3 (⟨t.val / 16, by omega⟩ : Fin 2) cc e)
  rw [hX, hG]

/-- Every index of the array lies in the block of the last point of its half, which writes back. -/
theorem cover6 (i : S2x64x128.Idx) : ∃ t : Fin cfg0.N, (cfg0.win 6).flush t = true ∧ i ∈ ((cfg0.win 6).blk t).view.set := by
  have h0 : (i 0).val < 2 := (i 0).isLt
  have h1 : (i 1).val < 64 := (i 1).isLt
  have h2 : (i 2).val < 128 := (i 2).isLt
  obtain ⟨t, htv⟩ : ∃ t : Fin cfg0.N, t.val = 16 * (i 0).val + 15 := ⟨⟨16 * (i 0).val + 15, lt_N (by omega)⟩, rfl⟩
  obtain ⟨e0, e1, e2, -⟩ := idx_out t
  refine ⟨t, (flush0_6 t).mpr (by rw [htv]; omega), ?_⟩
  show i ∈ ((View.whole main_v1_2).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1
              rw [e0, htv]; omega
  | ⟨1, _⟩ => show win0_6.index t (1 : Fin 3) * 64 ≤ (i 1).val ∧ (i 1).val < win0_6.index t (1 : Fin 3) * 64 + 64
              rw [e1]; omega
  | ⟨2, _⟩ => show win0_6.index t (2 : Fin 3) * 128 ≤ (i 2).val ∧ (i 2).val < win0_6.index t (2 : Fin 3) * 128 + 128
              rw [e2]; omega

theorem cover7 (i : S2x64x128.Idx) : ∃ t : Fin cfg0.N, (cfg0.win 7).flush t = true ∧ i ∈ ((cfg0.win 7).blk t).view.set := by
  have h0 : (i 0).val < 2 := (i 0).isLt
  have h1 : (i 1).val < 64 := (i 1).isLt
  have h2 : (i 2).val < 128 := (i 2).isLt
  obtain ⟨t, htv⟩ : ∃ t : Fin cfg0.N, t.val = 16 * (i 0).val + 15 := ⟨⟨16 * (i 0).val + 15, lt_N (by omega)⟩, rfl⟩
  obtain ⟨-, -, -, e0, e1, e2⟩ := idx_out t
  refine ⟨t, (flush0_7 t).mpr (by rw [htv]; omega), ?_⟩
  show i ∈ ((View.whole main_v1_3).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1
              rw [e0, htv]; omega
  | ⟨1, _⟩ => show win0_7.index t (1 : Fin 3) * 64 ≤ (i 1).val ∧ (i 1).val < win0_7.index t (1 : Fin 3) * 64 + 64
              rw [e1]; omega
  | ⟨2, _⟩ => show win0_7.index t (2 : Fin 3) * 128 ≤ (i 2).val ∧ (i 2).val < win0_7.index t (2 : Fin 3) * 128 + 128
              rw [e2]; omega

/-- After the region the third result holds the class sums of the projected rows, half by half. -/
theorem arr6 (c : Dev nD) : (Gen.dat0 (F := Ideal) V c).arrAt 6 cfg0.N
    = Cert.Spec.halfSum (Cert.Spec.col (V c main_v0)) (Cert.Spec.proj (V c main_arg0) (V c main_arg2) (V c main_arg3)) :=
  (dat0 V c).arrAt_eq_of_cover 6 (Cert.Spec.halfSum (yv V c) (Pv V c)) (fun t hf => flushed6_eq V c t hf) cover6

/-- After the region the fourth result holds the class counts, half by half, along the features. -/
theorem arr7 (c : Dev nD) : (Gen.dat0 (F := Ideal) V c).arrAt 7 cfg0.N = Cert.Spec.halfCount (Cert.Spec.col (V c main_v0)) :=
  (dat0 V c).arrAt_eq_of_cover 7 (Cert.Spec.halfCount (yv V c)) (fun t hf => flushed7_eq V c t hf) cover7

end Arrays

end Cert.KernelIdeal.Region0Acc

end
-- ==== Proof.Region1.lean ====
/-
  Region 1: the second call.  Each of its 16 points takes 8192 rows of the projection, the same rows of the
  squared-norm column and the whole new centroid, and leaves, for row r and class c,
  1 / (1 + exp (-exp (-½ · sqrt (max (d², ε))))), d² = (‖P r‖² + ‖nc c‖²) - 2 · ⟨P r, nc c⟩.
  The blocks of the 16 points tile the result array, so after the region the array is that function of the
  three arrays the region found, index by index.
-/
import proofs.«420840_j11742440587416_3_alg».proof.Proof.Gen.KernelIdeal.Frame
import proofs.«420840_j11742440587416_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The body's arithmetic at an index -/

/-- The column of squared norms, spread over the 64 classes, reads row `p` of the column. -/
theorem rowNorm_apply (x7 : FVec Ideal S8192x1 .f32) (p : Fin 8192) (q : Fin 64) :
    broadcastTo S8192x64 x7 broadcasts_S8192x1_S8192x64 (ix2 p q) = x7 (ix2 p (0 : Fin 1)) := by
  refine broadcastTo_apply x7 broadcasts_S8192x1_S8192x64 (ix2 p q) (ix2 p (0 : Fin 1)) fun ax => ?_
  match ax with
  | ⟨0, _⟩ =>
    show p.val = if (8192 : Nat) = 1 then 0 else p.val
    rw [if_neg (by decide)]
  | ⟨1, _⟩ => rfl

/-- The squared norm of centroid row `q` as the body forms it: the lane sum of the squares, recast to one row
    and spread over the 8192 rows. -/
theorem classNorm_apply (x2 : FVec Ideal S64x128 .f32) (hacc : (0x00000000#32 : BitVec 32) = 0x00000000#32)
    (p : Fin 8192) (q : Fin 64) :
    broadcastTo S8192x64 (shapeCast S1x64 (multiReduction (F := Ideal) .add [1] S64 (mulf x2 x2) 0x00000000#32
        reduces_S64x128_S64 (.inl rfl) hacc) shapeCasts_S64_S1x64) broadcasts_S1x64_S8192x64 (ix2 p q)
      = ∑ e : Fin 128, x2 (ix2 q e) * x2 (ix2 q e) := by
  refine (broadcastTo_1b_ab_apply _ broadcasts_S1x64_S8192x64 p q).trans ?_
  refine (shapeCast_a_1a_apply _ shapeCasts_S64_S1x64 (0 : Fin 1) q).trans ?_
  refine (Ideal.multiReduction_add_single (mulf x2 x2) 0x00000000#32 reduces_S64x128_S64 (.inl rfl) hacc (ix1 q)).trans ?_
  show ∑ e : Fin 128, mulf x2 x2 (reduces_S64x128_S64.lift (ix1 q) e) = _
  refine Finset.sum_congr rfl fun e _ => ?_
  have hi : reduces_S64x128_S64.lift (ix1 q) e = ix2 q e := funext fun a => Fin.ext (by
    match a with
    | ⟨0, _⟩ => rfl
    | ⟨1, _⟩ => rfl)
  rw [hi]
  rfl

/-! The contraction of the cross term: the left operand is read at (row, k), the right at (k, class). -/

theorem lhs_cross_0 (i : S8192x64.Idx) (k : dot_S8192x128_S128x64_S8192x64_1_0_0_1_n_n.contr.Idx) :
    (dot_S8192x128_S128x64_S8192x64_1_0_0_1_n_n.lhsIdx i k 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_cross_1 (i : S8192x64.Idx) (k : dot_S8192x128_S128x64_S8192x64_1_0_0_1_n_n.contr.Idx) :
    (dot_S8192x128_S128x64_S8192x64_1_0_0_1_n_n.lhsIdx i k 1).val = (k ⟨0, by decide⟩).val :=
  dot_S8192x128_S128x64_S8192x64_1_0_0_1_n_n.lhsIdx_val_of_single rfl i k
theorem rhs_cross_0 (i : S8192x64.Idx) (k : dot_S8192x128_S128x64_S8192x64_1_0_0_1_n_n.contr.Idx) :
    (dot_S8192x128_S128x64_S8192x64_1_0_0_1_n_n.rhsIdx i k 0).val = (k ⟨0, by decide⟩).val :=
  dot_S8192x128_S128x64_S8192x64_1_0_0_1_n_n.rhsIdx_val_of_single rfl i k
theorem rhs_cross_1 (i : S8192x64.Idx) (k : dot_S8192x128_S128x64_S8192x64_1_0_0_1_n_n.contr.Idx) :
    (dot_S8192x128_S128x64_S8192x64_1_0_0_1_n_n.rhsIdx i k 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The product into the zero accumulator, at (row `p`, class `q`): the sum over the 128 features. -/
theorem cross_apply (l : FVec Ideal S8192x128 .bf16) (r : FVec Ideal S128x64 .bf16) (p : Fin 8192) (q : Fin 64) :
    matmul dot_S8192x128_S128x64_S8192x64_1_0_0_1_n_n none l r (constant S8192x64 .f32 0x00000000#32) (ix2 p q)
      = ∑ k : Fin 128, l (ix2 p k) * r (ix2 k q) := by
  refine (Ideal.matmul_constant_zero_apply dot_S8192x128_S128x64_S8192x64_1_0_0_1_n_n none l r (ix2 p q)).trans ?_
  rw [← Equiv.sum_comp (ValueIdx.contrEquiv1 dot_S8192x128_S128x64_S8192x64_1_0_0_1_n_n 128 rfl rfl).symm]
  refine Finset.sum_congr rfl fun k _ => ?_
  have hk := ValueIdx.contrEquiv1_symm_val dot_S8192x128_S128x64_S8192x64_1_0_0_1_n_n 128 rfl rfl k
  have el : dot_S8192x128_S128x64_S8192x64_1_0_0_1_n_n.lhsIdx (ix2 p q) ((ValueIdx.contrEquiv1 dot_S8192x128_S128x64_S8192x64_1_0_0_1_n_n 128 rfl rfl).symm k) = ix2 p k := funext fun a => Fin.ext (by
    match a with
    | ⟨0, _⟩ => exact lhs_cross_0 _ _
    | ⟨1, _⟩ => exact (lhs_cross_1 _ _).trans hk)
  have er : dot_S8192x128_S128x64_S8192x64_1_0_0_1_n_n.rhsIdx (ix2 p q) ((ValueIdx.contrEquiv1 dot_S8192x128_S128x64_S8192x64_1_0_0_1_n_n 128 rfl rfl).symm k) = ix2 k q := funext fun a => Fin.ext (by
    match a with
    | ⟨0, _⟩ => exact (rhs_cross_0 _ _).trans hk
    | ⟨1, _⟩ => exact rhs_cross_1 _ _)
  rw [el, er]

/-- The cross term as the body forms it: the right operand is the centroid block, its format changed (the
    identity here) and transposed, so the sum pairs feature `k` of row `p` with feature `k` of class `q`. -/
theorem crossT_apply (x0 : FVec Ideal S8192x128 .bf16) (x2 : FVec Ideal S64x128 .f32) (p : Fin 8192) (q : Fin 64) :
    matmul dot_S8192x128_S128x64_S8192x64_1_0_0_1_n_n none x0
        (transpose S128x64 [1, 0] (truncf .bf16 x2 bitsLt_bf16_f32) transposes_S64x128_p1_0_S128x64)
        (constant S8192x64 .f32 0x00000000#32) (ix2 p q)
      = ∑ k : Fin 128, x0 (ix2 p k) * x2 (ix2 q k) :=
  (cross_apply x0 _ p q).trans (Finset.sum_congr rfl fun k _ =>
    congrArg (x0 (ix2 p k) * ·)
      (transpose_ix2_apply (truncf .bf16 x2 bitsLt_bf16_f32) transposes_S64x128_p1_0_S128x64 k q))

theorem sqrt_apply (a : FVec Ideal S8192x64 .f32) (i : S8192x64.Idx) : Idealize.ShloMosaic.sqrt a i = Ideal.sqrt (a i) := rfl
theorem exp_apply (a : FVec Ideal S8192x64 .f32) (i : S8192x64.Idx) : Idealize.ShloMosaic.exp a i = Ideal.exp (a i) := rfl

/-- The body's one stored value at (row `p`, class `q`) of its block, from the three blocks it loads. -/
theorem pay_apply (x0 : FVec Ideal S8192x128 .bf16) (x2 : FVec Ideal S64x128 .f32) (x7 : FVec Ideal S8192x1 .f32)
    (p : Fin 8192) (q : Fin 64) :
    k1_pay1 (F := Ideal) x0 x2 x7 (ix2 p q)
      = Ideal.div (Ideal.ofBits .f32 0x3F800000#32)
          (Ideal.ofBits .f32 0x3F800000#32
            + Ideal.exp (-(Ideal.exp (Ideal.ofBits .f32 0xBF000000#32
                * Ideal.sqrt (max ((x7 (ix2 p (0 : Fin 1)) + ∑ e : Fin 128, x2 (ix2 q e) * x2 (ix2 q e))
                    - Ideal.ofBits .f32 0x40000000#32 * ∑ e : Fin 128, x0 (ix2 p e) * x2 (ix2 q e))
                  (Ideal.ofBits .f32 0x2B8CBCCC#32)))))) := by
  unfold k1_pay1
  simp only [shapeCast_self, divf_apply, addf_apply, subf_apply, mulf_apply, maximumf_apply, broadcast_apply,
    sqrt_apply, exp_apply]
  rw [rowNorm_apply, classNorm_apply, crossT_apply]
  show Ideal.div _ (_ + Ideal.exp (Ideal.ofBits .f32 0x00000000#32 - _)) = _
  rw [Ideal.ofBits_zero_f32, zero_sub]
  rfl

/-! ## One block of the result -/

/-- Where the three loaded blocks are rows of the arrays `P`, `Q`, `NC` — block row `p` being array row `r` —
    the body's value at (`p`, `q`) is the specification's at (`r`, `q`). -/
theorem block_score (P : S131072x128.Idx → EReal) (Q : S131072x1.Idx → EReal) (NC : S64x128.Idx → EReal)
    (x0 : FVec Ideal S8192x128 .bf16) (x1 : FVec Ideal S8192x1 .f32) (x2 : FVec Ideal S64x128 .f32)
    (p : Fin 8192) (q : Fin 64) (r : Fin 131072)
    (h0 : ∀ k : Fin 128, x0 (ix2 p k) = P (ix2 r k))
    (h1 : x1 (ix2 p (0 : Fin 1)) = Q (ix2 r (0 : Fin 1)))
    (h2 : ∀ k : Fin 128, x2 (ix2 q k) = NC (ix2 q k)) :
    k1_pay1 (F := Ideal) x0 x2 x1 (ix2 p q) = Cert.Spec.score P Q NC (ix2 r q) := by
  rw [pay_apply]
  unfold Cert.Spec.score Cert.Spec.dist2
  simp only [h0, h1, h2]

theorem zero_offsets : (![0, 0] : Fin 2 → Nat) = fun _ => 0 := funext fun a => by fin_cases a <;> rfl

/-- The index maps, decided over the 16 points: point `t` takes block (`t`, 0) of the projection, of the norm column
    and of the result, and the one block of the centroid. -/
theorem block_of_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## What a point writes back -/

variable (V : (c : Dev nD) → (b : Ref sig .tc) → Buf (Elt Ideal) ((c : Thread nD τ).loc b))

/-- Point `t` writes back block `t` of the specification's function of the three arrays the region found: row `p` of
    its blocks is row `8192 t + p` of the arrays. -/
theorem writeback_eq (c : Dev nD) (t : Fin cfg1.N) :
    (dat1 (F := Ideal) V c).flushed 3 t
      = ((cfg1.win 3).blk t).view.read (Elt Ideal) (Cert.Spec.score (V c main_v1_0) (V c main_v1_1) (V c main_v7)) := by
  show (cfg1.win 3).cut (grid1.coords t) ((dat1 V c).after 3 t) = _
  rw [after1_3]
  unfold out1_3
  rw [View.canon_unit_zero zero_offsets]
  simp only [View.ld_unit_zero (S := S8192x128) zero_offsets, View.ld_unit_zero (S := S64x128) zero_offsets, View.ld_unit_zero (S := S8192x1) zero_offsets]
  obtain ⟨e00, e01, e10, e11, e20, e21, e30, e31⟩ := block_of_point t
  have ht : t.val < 16 := Nat.lt_of_lt_of_eq t.isLt N_1
  funext j
  obtain ⟨p, q, rfl⟩ : ∃ (p : Fin 8192) (q : Fin 64), j = ix2 p q := ⟨j 0, j 1, eq_ix2 j⟩
  show k1_pay1 (F := Ideal) (iblk1 V c 0 t) (iblk1 V c 2 t) (iblk1 V c 1 t) (ix2 p q)
    = Cert.Spec.score (V c main_v1_0) (V c main_v1_1) (V c main_v7) (((cfg1.win 3).blk t).view.emb (ix2 p q))
  have hemb : ((cfg1.win 3).blk t).view.emb (ix2 p q) = ix2 (⟨t.val * 8192 + p.val, by omega⟩ : Fin 131072) q := by
    funext a; apply Fin.ext
    match a with
    | ⟨0, _⟩ => show win1_3.index t (0 : Fin 2) * 8192 + 1 * p.val = t.val * 8192 + p.val; omega
    | ⟨1, _⟩ => show win1_3.index t (1 : Fin 2) * 64 + 1 * q.val = q.val; omega
  rw [hemb]
  refine block_score (V c main_v1_0) (V c main_v1_1) (V c main_v7) (iblk1 V c 0 t) (iblk1 V c 1 t) (iblk1 V c 2 t)
    p q ⟨t.val * 8192 + p.val, by omega⟩ (fun k => ?_) ?_ (fun k => ?_)
  · show V c main_v1_0 (((cfg1.win 0).blk t).view.emb (ix2 p k)) = V c main_v1_0 (ix2 (⟨t.val * 8192 + p.val, by omega⟩ : Fin 131072) k)
    have he : ((cfg1.win 0).blk t).view.emb (ix2 p k) = ix2 (⟨t.val * 8192 + p.val, by omega⟩ : Fin 131072) k := by
      funext a; apply Fin.ext
      match a with
      | ⟨0, _⟩ => show win1_0.index t (0 : Fin 2) * 8192 + 1 * p.val = t.val * 8192 + p.val; omega
      | ⟨1, _⟩ => show win1_0.index t (1 : Fin 2) * 128 + 1 * k.val = k.val; omega
    rw [he]
  · show V c main_v1_1 (((cfg1.win 1).blk t).view.emb (ix2 p (0 : Fin 1))) = V c main_v1_1 (ix2 (⟨t.val * 8192 + p.val, by omega⟩ : Fin 131072) (0 : Fin 1))
    have he : ((cfg1.win 1).blk t).view.emb (ix2 p (0 : Fin 1)) = ix2 (⟨t.val * 8192 + p.val, by omega⟩ : Fin 131072) (0 : Fin 1) := by
      funext a; apply Fin.ext
      match a with
      | ⟨0, _⟩ => show win1_1.index t (0 : Fin 2) * 8192 + 1 * p.val = t.val * 8192 + p.val; omega
      | ⟨1, _⟩ => show win1_1.index t (1 : Fin 2) * 1 + 1 * 0 = 0; omega
    rw [he]
  · show V c main_v7 (((cfg1.win 2).blk t).view.emb (ix2 q k)) = V c main_v7 (ix2 q k)
    have he : ((cfg1.win 2).blk t).view.emb (ix2 q k) = ix2 q k := by
      funext a; apply Fin.ext
      match a with
      | ⟨0, _⟩ => show win1_2.index t (0 : Fin 2) * 64 + 1 * q.val = q.val; omega
      | ⟨1, _⟩ => show win1_2.index t (1 : Fin 2) * 128 + 1 * k.val = k.val; omega
    rw [he]

/-! ## The whole array -/

/-- An index of the result array lies in point `t`'s block exactly when, on each axis, its coordinate lies in the
    block's range. -/
theorem mem_block_iff (t : Fin cfg1.N) (i : S131072x64.Idx) :
    i ∈ ((cfg1.win 3).blk t).view.set ↔ ∀ a : Fin 2, win1_3.index t a * S8192x64.size a ≤ (i a).val
      ∧ (i a).val < win1_3.index t a * S8192x64.size a + S8192x64.size a := by
  show i ∈ ((View.whole main_v28).slice (win1_3.rect t)).set ↔ _
  rw [View.set_slice_whole, Rect.mem_set_unit]
  exact Iff.rfl

/-- After the region the result array is the specification's function of the projection, the norm column and the new
    centroid as the region found them: every point writes its block back, and row `r` lies in the block of point
    `r / 8192`. -/
theorem arr3 (c : Dev nD) :
    (dat1 (F := Ideal) V c).arrAt 3 cfg1.N = Cert.Spec.score (V c main_v1_0) (V c main_v1_1) (V c main_v7) :=
  (dat1 (F := Ideal) V c).arrAt_eq_of_cover 3 (Cert.Spec.score (V c main_v1_0) (V c main_v1_1) (V c main_v7))
    (fun t _ => writeback_eq V c t) fun i => by
      have hi0 : (i 0).val < 131072 := (i 0).isLt
      have hi1 : (i 1).val < 64 := (i 1).isLt
      obtain ⟨t, ht⟩ : ∃ t : Fin cfg1.N, t.val = (i 0).val / 8192 :=
        ⟨⟨(i 0).val / 8192, Nat.lt_of_lt_of_eq (by omega : (i 0).val / 8192 < 16) N_1.symm⟩, rfl⟩
      obtain ⟨-, -, -, -, -, -, e30, e31⟩ := block_of_point t
      refine ⟨t, flush1_3 t, ?_⟩
      rw [mem_block_iff]
      intro a
      match a with
      | ⟨0, _⟩ =>
        show win1_3.index t (0 : Fin 2) * 8192 ≤ (i 0).val ∧ (i 0).val < win1_3.index t (0 : Fin 2) * 8192 + 8192
        omega
      | ⟨1, _⟩ =>
        show win1_3.index t (1 : Fin 2) * 64 ≤ (i 1).val ∧ (i 1).val < win1_3.index t (1 : Fin 2) * 64 + 64
        omega

end Cert.KernelIdeal.Region1

end
-- ==== Proof.KernelValue.lean ====
/-
  The kernel's two results as functions of the launched arrays.

  The first region leaves the projection `P`, its row norms, and per half of the batch the class sums and counts;
  the host glue forms from them the new centroid, which is the specification's (the halves add up to the batch);
  the second region evaluates the score of `P`, its row norms and the new centroid; the second result is formed
  by the host from the new centroid alone.
-/
import proofs.«420840_j11742440587416_3_alg».proof.Proof.KernelRun
import proofs.«420840_j11742440587416_3_alg».proof.Proof.KernelBridge
import proofs.«420840_j11742440587416_3_alg».proof.Proof.Region0Rows
import proofs.«420840_j11742440587416_3_alg».proof.Proof.Region0Acc
import proofs.«420840_j11742440587416_3_alg».proof.Proof.Region1

noncomputable section

namespace Cert.KernelIdeal.Results

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

/-- The projection of the launched arrays. -/
abbrev projOf (c : Dev nD) : (⟨2, ![131072, 128]⟩ : Shape).Idx → EReal :=
  Spec.proj (m ((c : Thread nD τ).loc main_arg0)) (m ((c : Thread nD τ).loc main_arg2)) (m ((c : Thread nD τ).loc main_arg3))

/-- The new centroid of the launched arrays. -/
abbrev centroidOf (c : Dev nD) : (⟨2, ![64, 128]⟩ : Shape).Idx → EReal :=
  Spec.newCentroid (m ((c : Thread nD τ).loc main_arg4))
    (Spec.classSum (m ((c : Thread nD τ).loc main_arg1)) (projOf m c)) (Spec.classCount (m ((c : Thread nD τ).loc main_arg1)))

/-- The class-word column the first region reads is the launched class words. -/
theorem col_v0 (c : Dev nD) : Spec.col (V1 m ρ c main_v0) = m ((c : Thread nD τ).loc main_arg1) := by
  funext i
  unfold Spec.col
  refine (congrFun (Glue.V1_v0 m ρ c) (ix2 (i 0) 0)).trans ?_
  refine shapeCast_apply _ _ (ix2 (i 0) 0) i ?_
  rw [Shape.rowMajor_val_one, Shape.rowMajor_val_two]
  show (i 0).val = (i 0).val * 1 + 0
  omega

/-- The first region's projection output. -/
theorem rows_eq (c : Dev nD) : (dat0 (V1 m ρ) c).arrAt 4 cfg0.N = projOf m c := by
  rw [Region0Rows.arr4 (V1 m ρ) c, Glue.V1_arg0, Glue.V1_arg2, Glue.V1_arg3]

/-- The first region's row norms. -/
theorem norms_eq (c : Dev nD) : (dat0 (V1 m ρ) c).arrAt 5 cfg0.N = Spec.sqRow (projOf m c) := by
  rw [Region0Rows.arr5 (V1 m ρ) c, Glue.V1_arg0, Glue.V1_arg2, Glue.V1_arg3]

/-- The first region's class sums, per half. -/
theorem sums_eq (c : Dev nD) :
    W2 m ρ c (Proc.devRef .tc main_v1_2) = Spec.halfSum (m ((c : Thread nD τ).loc main_arg1)) (projOf m c) := by
  refine (W2_arr m ρ c 6).trans ?_
  rw [Region0Acc.arr6 (V1 m ρ) c, col_v0, Glue.V1_arg0, Glue.V1_arg2, Glue.V1_arg3]

/-- The first region's class counts, per half. -/
theorem counts_eq (c : Dev nD) :
    W2 m ρ c (Proc.devRef .tc main_v1_3) = Spec.halfCount (m ((c : Thread nD τ).loc main_arg1)) := by
  refine (W2_arr m ρ c 7).trans ?_
  rw [Region0Acc.arr7 (V1 m ρ) c, col_v0]

/-- The new centroid the second region and the host tail read. -/
theorem centroid_eq (c : Dev nD) : W3 m ρ c (Proc.devRef .tc main_v7) = centroidOf m c := by
  rw [Glue.W3_v7, sums_eq, counts_eq, Glue.W2_arg4]
  exact Bridge.ncOf_halves _ _ _

/-- The first result. -/
theorem first_eq (c : Dev nD) :
    W4 m ρ c (Proc.devRef .tc main_v28) = Spec.score (projOf m c) (Spec.sqRow (projOf m c)) (centroidOf m c) := by
  refine (W4_arr m ρ c 3).trans ?_
  rw [Region1.arr3 (V3 m ρ) c]
  show Spec.score (W3 m ρ c (Proc.devRef .tc main_v1_0)) (W3 m ρ c (Proc.devRef .tc main_v1_1)) (W3 m ρ c (Proc.devRef .tc main_v7)) = _
  rw [Glue.W3_v1_0, Glue.W3_v1_1, centroid_eq, rows_eq, norms_eq]

/-- The second result. -/
theorem second_eq (c : Dev nD) : W4 m ρ c (Proc.devRef .tc main_v27) = Glue.protoOf (F := Ideal) (centroidOf m c) := by
  refine (W4_of_ne m ρ c main_v27 (by decide)).trans ?_
  rw [Glue.W3_v27, centroid_eq]

/-- Every weakly fair execution of the kernel's @main terminates, nothing faulting, with the two results at these
    functions of the launched arrays and the arguments unchanged. -/
theorem run : θ_run defs (onTc (τ := τ) (main (F := Ideal))) ⟨m, fun _ => 0, ρ⟩ (fun r => ∀ c : Dev nD,
      r.2.mem ((c.tc : Thread nD τ).loc main_v28) = Spec.score (projOf m c) (Spec.sqRow (projOf m c)) (centroidOf m c)
      ∧ r.2.mem ((c.tc : Thread nD τ).loc main_v27) = Glue.protoOf (F := Ideal) (centroidOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (first_eq m ρ c), (h c).2.1.trans (second_eq m ρ c), (h c).2.2⟩)
    (run_results m ρ)

end Cert.KernelIdeal.Results

end
-- ==== Proof.LibScatterWords.lean ====
/-
  A host scatter with an add body whose one index word per update names a row (an entry of a vector, or a row of a
  matrix), read at one element for ARBITRARY index words: the word is read signed and is not clamped, so an update
  whose word is not a row number of the operand lands nowhere and adds nothing.
-/
import Idealize.ShloMosaic.Lib.ValueIdx

noncomputable section

open scoped BigOperators

namespace Cert.Lib.ScatterWords

open Idealize.ShloMosaic Idealize.ShloMosaic.ValueIdx

/-- Of two axes, axis 0 is not in the list holding axis 1 alone … -/
private theorem fin2_zero_notMem : (0 : Fin 2) ∉ ([1] : List (Fin 2)) := by decide
/-- … and axis 1 is not in the list holding axis 0 alone. -/
private theorem fin2_one_notMem : (1 : Fin 2) ∉ ([0] : List (Fin 2)) := by decide

/-- A rank-1 index set is its one coordinate's range. -/
private def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
private theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

/-- For any dimension numbers: update j lands on the operand index t exactly when, on every operand axis, start plus
    window coordinate is t's coordinate. (If the sums are t's coordinates they are inside the operand, so the update
    is kept and lands there; if the update is kept, the sums are nonnegative and are the coordinates of where it
    lands; if it is dropped it lands on no t.) -/
private theorem resultIdx?_eq_some_iff {s si u : Shape} (d : ScatterDims s si u) {w : Nat} (j : u.Idx)
    (idx : IVec si w) (t : s.Idx) :
    d.resultIdx? j idx = some t ↔ ∀ a, d.start j idx a + (d.window j a : Int) = ((t a).val : Int) := by
  unfold ScatterDims.resultIdx?
  constructor
  · intro h a
    split at h
    · rename_i hall
      have ht := congrFun (Option.some.inj h) a
      have hv := congrArg Fin.val ht
      simp only at hv
      have := (hall a).1
      omega
    · exact absurd h (by simp)
  · intro h
    have hall : ∀ a, 0 ≤ d.start j idx a + d.window j a ∧ d.start j idx a + d.window j a < s.size a := by
      intro a
      have := (t a).isLt
      rw [h a]
      omega
    rw [dif_pos hall]
    congr 1
    funext a
    refine Fin.ext ?_
    show (d.start j idx a + d.window j a).toNat = (t a).val
    rw [h a]
    omega

/-- Update e of the vector scatter lands on entry i exactly when its index word, read signed, is i: the start on the
    one operand axis is that word and the window coordinate there is 0 (the axis is inserted). -/
private theorem vec_resultIdx_iff {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  obtain ⟨uw, iw, sd, iv, wf⟩ := d
  simp only at h1 h2 h3 h4
  subst h1 h2 h3 h4
  set D : ScatterDims ⟨1, ![N]⟩ ⟨2, ![E, 1]⟩ ⟨1, ![E]⟩ := ⟨[], [0], [0], 1, wf⟩ with hD
  have hwin : D.window (ix1 e) 0 = 0 := by
    unfold ScatterDims.window
    split
    · rename_i h; exact absurd h (List.not_mem_nil (a := (0 : Fin 1)))
    · rfl
  have hstart : D.start (ix1 e) idx 0 = (idx (ix2 e (0 : Fin 1))).toInt := by
    unfold ScatterDims.start
    rw [dif_pos (show (0 : Fin 1) ∈ D.scatterDimsToOperandDims from List.mem_singleton.mpr rfl)]
    congr 2
    funext b; refine Fin.ext ?_
    match b with
    | ⟨0, _⟩ => rfl
    | ⟨1, _⟩ => rfl
  rw [resultIdx?_eq_some_iff]
  constructor
  · intro h
    have h0 := h 0
    rw [hwin, hstart] at h0
    have h0' : (idx (ix2 e (0 : Fin 1))).toInt + ((0 : Nat) : Int) = (i.val : Int) := h0
    omega
  · intro h a
    obtain rfl : a = 0 := Subsingleton.elim _ _
    rw [hwin, hstart, h]
    show (i.val : Int) + ((0 : Nat) : Int) = (i.val : Int)
    omega

/-- Update (e, k') of the row scatter lands on (i, k) exactly when its index word, read signed, is i and k' is k: on
    the row axis the start is the word and the window coordinate 0 (the axis is inserted); on the column axis the
    start is 0 (the map does not name it) and the window coordinate is k'. -/
private theorem rows_resultIdx_iff {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1) (idx : IVec ⟨2, ![E, 1]⟩ w) (e : Fin E) (k' : Fin K) (i : Fin N) (k : Fin K) :
    d.resultIdx? (ix2 e k') idx = some (ix2 i k)
      ↔ (idx (ix2 e (0 : Fin 1))).toInt = (i.val : Int) ∧ k' = k := by
  obtain ⟨uw, iw, sd, iv, wf⟩ := d
  simp only at h1 h2 h3 h4
  subst h1 h2 h3 h4
  set D : ScatterDims ⟨2, ![N, K]⟩ ⟨2, ![E, 1]⟩ ⟨2, ![E, K]⟩ := ⟨[1], [0], [0], 1, wf⟩ with hD
  have hwin0 : D.window (ix2 e k') 0 = 0 := by
    unfold ScatterDims.window
    split
    · rename_i h; exact absurd h fin2_zero_notMem
    · rfl
  have hwin1 : D.window (ix2 e k') 1 = k'.val := by
    unfold ScatterDims.window
    split
    · rfl
    · rename_i h; exact absurd (show (1 : Fin 2) ∈ ([1] : List (Fin 2)) from List.mem_singleton.mpr rfl) h
  have hstart0 : D.start (ix2 e k') idx 0 = (idx (ix2 e (0 : Fin 1))).toInt := by
    unfold ScatterDims.start
    rw [dif_pos (show (0 : Fin 2) ∈ D.scatterDimsToOperandDims from List.mem_singleton.mpr rfl)]
    congr 2
    funext b; refine Fin.ext ?_
    match b with
    | ⟨0, _⟩ => rfl
    | ⟨1, _⟩ => rfl
  have hstart1 : D.start (ix2 e k') idx 1 = 0 := by
    unfold ScatterDims.start
    split
    · rename_i h; exact absurd h fin2_one_notMem
    · rfl
  rw [resultIdx?_eq_some_iff]
  constructor
  · intro h
    have h0 := h 0
    have h1 := h 1
    rw [hwin0, hstart0] at h0
    rw [hwin1, hstart1] at h1
    have h0' : (idx (ix2 e (0 : Fin 1))).toInt + ((0 : Nat) : Int) = (i.val : Int) := h0
    have h1' : (0 : Int) + ((k'.val : Nat) : Int) = (k.val : Int) := h1
    refine ⟨by omega, Fin.ext (by omega)⟩
  · rintro ⟨h, rfl⟩ a
    match a with
    | ⟨0, _⟩ =>
      show D.start (ix2 e k') idx 0 + ((D.window (ix2 e k') 0 : Nat) : Int) = (i.val : Int)
      rw [hwin0, hstart0, h]
      omega
    | ⟨1, _⟩ =>
      show D.start (ix2 e k') idx 1 + ((D.window (ix2 e k') 1 : Nat) : Int) = (k'.val : Int)
      rw [hwin1, hstart1]
      omega

/-- Scalars added into a vector, for arbitrary index words: entry i of the result is entry i of the operand plus
    every update whose index word, read signed, is i. A word that is no entry number (negative, or N or more) is
    equal to no i below N, so its update appears in no entry. -/
theorem scatterAdd_vec_words {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ 32) (upd : (⟨1, ![E]⟩ : Shape).Idx → EReal)
    (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  exact if_congr (vec_resultIdx_iff d h1 h2 h3 h4 idx e i) rfl rfl

/-- Rows added into a matrix, for arbitrary index words: element (i, k) of the result is that element of the operand
    plus column k of every update row whose index word, read signed, is i. A word that is no row number (negative,
    or N or more) is equal to no i below N, so its update row appears in no row. -/
theorem scatterAdd_rows_words {N E K : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (x : (⟨2, ![N, K]⟩ : Shape).Idx → EReal) (idx : IVec ⟨2, ![E, 1]⟩ 32) (upd : (⟨2, ![E, K]⟩ : Shape).Idx → EReal)
    (i : Fin N) (k : Fin K) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  rw [Finset.sum_filter, sum_idx2]
  refine Finset.sum_congr rfl fun e _ => ?_
  have hinner : ∀ k' : Fin K,
      (if d.resultIdx? (ix2 e k') idx = some (ix2 i k) then upd (ix2 e k') else 0)
        = if k' = k then (if (idx (ix2 e (0 : Fin 1))).toInt = (i.val : Int) then upd (ix2 e k') else 0) else 0 := by
    intro k'
    by_cases hk : k' = k
    · rw [if_pos hk]
      refine if_congr ?_ rfl rfl
      rw [rows_resultIdx_iff d h1 h2 h3 h4 idx e k' i k]
      exact ⟨fun h => h.1, fun h => ⟨h, hk⟩⟩
    · rw [if_neg hk, if_neg]
      rw [rows_resultIdx_iff d h1 h2 h3 h4 idx e k' i k]
      exact fun h => hk h.2
  rw [Finset.sum_congr rfl fun k' _ => hinner k', Finset.sum_ite_eq' Finset.univ k]
  rw [if_pos (Finset.mem_univ k)]

/-- A 32-bit word read signed is the natural number n below 2³¹ exactly when it is the word of n: below 2³¹ the
    word of n has its top bit clear, so its signed reading is n, and the signed reading determines the word. -/
theorem toInt_eq_natCast_iff (w : BitVec 32) (n : Nat) (hn : n < 2 ^ 31) :
    w.toInt = (n : Int) ↔ w = BitVec.ofNat 32 n := by
  have hn' : n < 2147483648 := by simpa using hn
  have hnat : (BitVec.ofNat 32 n).toNat = n := by
    rw [BitVec.toNat_ofNat]
    exact Nat.mod_eq_of_lt (by omega)
  have hof : (BitVec.ofNat 32 n).toInt = (n : Int) := by
    rw [BitVec.toInt_eq_toNat_of_lt (by rw [hnat]; omega), hnat]
  constructor
  · intro h
    apply BitVec.eq_of_toInt_eq
    rw [h, hof]
  · intro h
    rw [h, hof]

end Cert.Lib.ScatterWords

end
-- ==== Proof.RefValue.lean ====
/-
  The reference program read as mathematics, over the extended reals.

  The reference projects each of the 131072 rows, `P r e = Σ_k x r k · W e k + b e`; adds, for every class `c < 64`,
  the projections of the rows whose class word is `c` (a scatter with an `add` body over the class words kept as a
  column) and counts those rows (the same scatter of ones); divides, adds the given centroid, and obtains the new
  centroid `nc`; and finally evaluates `1 / (1 + exp (-exp (-½ · sqrt (max (ε, d²)))))` with
  `d² = (‖P r‖² + ‖nc c‖²) - 2 · ⟨P r, nc c⟩`.  Four statements say this index by index:

  * `v4_eq`: the projection is `Spec.proj`;
  * `v15_eq`: the new centroid is `Spec.newCentroid` of the class sums and class counts of the projection. A scatter's
    element `(c, e)` is the sum over all rows `r` of `P r e` when the word of row `r`, read as a signed integer, is `c`, and of
    zero otherwise; for `c < 2³¹` that test is the equality of words `Spec.hot` uses, and `(if p then 1 else 0) · a` is
    `if p then a else 0`;
  * `v59_eq`: the first result is `Spec.score` of the projection, its row norms and the new centroid (the only law used
    beyond reading each operation at an index is `max (ε, d²) = max (d², ε)`, and `0 + a = a` for a sum's zero start);
  * `v34_eq`: the second result depends on the inputs only through the new centroid: it is `protoRef nc`.
-/
import proofs.«420840_j11742440587416_3_alg».proof.Proof.Gen.ReferenceIdeal.Read
import proofs.«420840_j11742440587416_3_alg».proof.Proof.Spec
import proofs.«420840_j11742440587416_3_alg».proof.Proof.LibScatterWords
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- The projection, index by index: a dot product of a row of `x` with a row of `W` (the transposed weight read back), plus the bias. -/
theorem v4_eq (x0 : (⟨S131072x512, .f32⟩ : BufTy).Contents (Elt Ideal)) (x2 : (⟨S128x512, .f32⟩ : BufTy).Contents (Elt Ideal))
    (x3 : (⟨S128, .f32⟩ : BufTy).Contents (Elt Ideal)) :
    Read.val_main_v4 (F := Ideal) x0 x2 x3 = Cert.Spec.proj x0 x2 x3 := by
  funext i
  have e1 : ∀ k : Fin 512, Read.lidx_main_v1 i k = ix2 (i 0) k := fun k =>
    funext fun a => Fin.ext (by match a with | ⟨0, _⟩ => rfl | ⟨1, _⟩ => rfl)
  have e2 : ∀ k : Fin 512, Read.idx_main_v0 (Read.ridx_main_v1 i k) = ix2 (i 1) k := fun k =>
    funext fun a => Fin.ext (by match a with | ⟨0, _⟩ => rfl | ⟨1, _⟩ => rfl)
  have e3 : Read.idx_main_v2 (Read.idx_main_v3 i) = ix1 (i 1) :=
    funext fun a => Fin.ext (by match a with | ⟨0, _⟩ => rfl)
  rw [Read.val_main_v4_apply, Read.val_main_v1_apply, Read.val_main_v3_apply, Read.val_main_v2_apply]
  simp only [Read.val_main_v0_apply, e1, e2, e3, Ideal.addf_def]
  rfl

/-- The new centroid: the given one plus the quotient of the class sum by the class count, both scatters read at an index. -/
theorem v15_eq (x0 : (⟨S131072x512, .f32⟩ : BufTy).Contents (Elt Ideal)) (x1 : (⟨S131072, .i32⟩ : BufTy).Contents (Elt Ideal))
    (x2 : (⟨S128x512, .f32⟩ : BufTy).Contents (Elt Ideal)) (x3 : (⟨S128, .f32⟩ : BufTy).Contents (Elt Ideal))
    (x4 : (⟨S64x128, .f32⟩ : BufTy).Contents (Elt Ideal)) :
    Read.val_main_v15 (F := Ideal) x0 x1 x2 x3 x4
      = Cert.Spec.newCentroid x4 (Cert.Spec.classSum x1 (Cert.Spec.proj x0 x2 x3)) (Cert.Spec.classCount x1) := by
  funext i
  obtain ⟨c, k, rfl⟩ : ∃ (c : Fin 64) (k : Fin 128), i = ix2 c k := ⟨i 0, i 1, eq_ix2 i⟩
  rw [← v4_eq]
  have hc : c.val < 2 ^ 31 := by have := c.isLt; omega
  have h7 : Read.val_main_v7 (F := Ideal) x0 x1 x2 x3 (ix2 c k)
      = ∑ e : Fin 131072, Cert.Spec.hot x1 e c * Read.val_main_v4 (F := Ideal) x0 x2 x3 (ix2 e k) := by
    unfold Read.val_main_v7
    simp only [Host.scatterAdd, Ideal.hostScatterAdd_def]
    rw [Cert.Lib.ScatterWords.scatterAdd_rows_words _ rfl rfl rfl rfl]
    rw [Read.val_main_v5_apply, Read.val_main_cst_apply, Ideal.ofBits_def, Ideal.ofBits_zero_f32, zero_add]
    refine Finset.sum_congr rfl fun e _ => ?_
    have e6 : Read.idx_main_v6 (ix2 e (0 : Fin 1)) = ix1 e :=
      funext fun a => Fin.ext (by match a with | ⟨0, _⟩ => rfl)
    rw [Read.val_main_v6_apply, e6]
    unfold Cert.Spec.hot
    simp only [Cert.Lib.ScatterWords.toInt_eq_natCast_iff _ _ hc, ite_mul, one_mul, zero_mul]
  have h11 : Read.val_main_v11 (F := Ideal) x1 (ix1 c) = ∑ e : Fin 131072, Cert.Spec.hot x1 e c := by
    unfold Read.val_main_v11
    simp only [Host.scatterAdd, Ideal.hostScatterAdd_def]
    rw [Cert.Lib.ScatterWords.scatterAdd_vec_words _ rfl rfl rfl rfl]
    rw [Read.val_main_v9_apply, Read.val_main_cst_1_apply, Ideal.ofBits_def, Ideal.ofBits_zero_f32, zero_add]
    refine Finset.sum_congr rfl fun e _ => ?_
    have e10 : Read.idx_main_v10 (ix2 e (0 : Fin 1)) = ix1 e :=
      funext fun a => Fin.ext (by match a with | ⟨0, _⟩ => rfl)
    rw [Read.val_main_v10_apply, e10, Read.val_main_v8_apply, Read.val_main_cst_0_apply, Ideal.ofBits_def,
      Ideal.ofBits_one_f32]
    unfold Cert.Spec.hot
    simp only [Cert.Lib.ScatterWords.toInt_eq_natCast_iff _ _ hc]
  have e13 : Read.idx_main_v12 (Read.idx_main_v13 (ix2 c k)) = ix1 c :=
    funext fun a => Fin.ext (by match a with | ⟨0, _⟩ => rfl)
  rw [Read.val_main_v15_apply, Read.val_main_v14_apply, Read.val_main_v13_apply, Read.val_main_v12_apply, e13, h7, h11]
  simp only [Ideal.addf_def, Ideal.hostDivf_def]
  rfl

/-- The first result at row `r` and class `c`: the row norm of `P`, the row norm of the new centroid and their inner product, each a sum over the 128 features, combined as `Spec.score` combines them. -/
theorem v59_eq (x0 : (⟨S131072x512, .f32⟩ : BufTy).Contents (Elt Ideal)) (x1 : (⟨S131072, .i32⟩ : BufTy).Contents (Elt Ideal))
    (x2 : (⟨S128x512, .f32⟩ : BufTy).Contents (Elt Ideal)) (x3 : (⟨S128, .f32⟩ : BufTy).Contents (Elt Ideal))
    (x4 : (⟨S64x128, .f32⟩ : BufTy).Contents (Elt Ideal)) :
    Read.val_main_v59 (F := Ideal) x0 x1 x2 x3 x4
      = Cert.Spec.score (Cert.Spec.proj x0 x2 x3) (Cert.Spec.sqRow (Cert.Spec.proj x0 x2 x3))
          (Read.val_main_v15 (F := Ideal) x0 x1 x2 x3 x4) := by
  funext i
  obtain ⟨r, c, rfl⟩ : ∃ (r : Fin 131072) (c : Fin 64), i = ix2 r c := ⟨i 0, i 1, eq_ix2 i⟩
  have e1 : ∀ k : Fin 128, Read.idx_main_v36 (Read.idx_main_v37 (Read.idx_main_v41 (ix2 r c))) k = ix2 r k := fun k =>
    funext fun a => Fin.ext (by match a with | ⟨0, _⟩ => rfl | ⟨1, _⟩ => rfl)
  have e2 : ∀ k : Fin 128, Read.idx_main_v39 (Read.idx_main_v40 (Read.idx_main_v42 (ix2 r c))) k = ix2 c k := fun k =>
    funext fun a => Fin.ext (by match a with | ⟨0, _⟩ => rfl | ⟨1, _⟩ => rfl)
  have e3 : ∀ k : Fin 128, Read.lidx_main_v45 (ix2 r c) k = ix2 r k := fun k =>
    funext fun a => Fin.ext (by match a with | ⟨0, _⟩ => rfl | ⟨1, _⟩ => rfl)
  have e4 : ∀ k : Fin 128, Read.idx_main_v44 (Read.ridx_main_v45 (ix2 r c) k) = ix2 c k := fun k =>
    funext fun a => Fin.ext (by match a with | ⟨0, _⟩ => rfl | ⟨1, _⟩ => rfl)
  rw [← v4_eq]
  simp only [Read.val_main_v59_apply, Read.val_main_v58_apply, Read.val_main_cst_13_apply, Read.val_main_v57_apply,
    Read.val_main_v56_apply, Read.val_main_cst_12_apply, Read.val_main_v55_apply, Read.val_main_v54_apply,
    Read.val_main_v53_apply, Read.val_main_v52_apply, Read.val_main_v51_apply, Read.val_main_cst_11_apply,
    Read.val_main_v50_apply, Read.val_main_v49_apply, Read.val_main_call1_v1_apply, Read.val_main_call1_v0_apply,
    Read.val_main_cst_10_apply, Read.val_main_v48_apply, Read.val_main_v43_apply, Read.val_main_v41_apply,
    Read.val_main_v37_apply, Read.val_main_v36_apply, Read.val_main_cst_7_apply, Read.val_main_v35_apply,
    Read.val_main_v42_apply, Read.val_main_v40_apply, Read.val_main_v39_apply, Read.val_main_cst_8_apply,
    Read.val_main_v38_apply, Read.val_main_v47_apply, Read.val_main_v46_apply, Read.val_main_cst_9_apply,
    Read.val_main_v45_apply, Read.val_main_v44_apply, e1, e2, e3, e4,
    Ideal.hostDivf_def, Ideal.addf_def, Ideal.subf_def, Ideal.mulf_def, Ideal.hostUnary_exp_def, Ideal.hostUnary_sqrt_def,
    Ideal.hostNegf_def, Ideal.negf_def, Ideal.maximumf_def, Ideal.ofBits_def, Ideal.ofBits_zero_f32, zero_add]
  rw [max_comm]
  rfl

/-- The second result as a function of the new centroid alone: for classes `c`, `c'` the value
    `exp (-½ · sqrt (max (ε, (‖nc c‖² + ‖nc c'‖²) - 2 · ⟨nc c, nc c'⟩)))`, spelt with the reference's own operations. -/
def protoRef (nc : (⟨S64x128, .f32⟩ : BufTy).Contents (Elt Ideal)) : (⟨S64x64, .f32⟩ : BufTy).Contents (Elt Ideal) :=
  Host.exp (F := Ideal)
    (mulf (broadcastInDim S64x64 ![] bcast_S_S64x64 (constant (F := Ideal) S_ .f32 0xBF000000#32))
      (Host.sqrt (F := Ideal)
        (maximumf (broadcastInDim S64x64 ![] bcast_S_S64x64 (id (constant (F := Ideal) S_ .f32 0x2B8CBCCC#32)))
          (subf
            (addf
              (broadcastInDim S64x64 ![0, 1] bcast_S64x1_S64x64_0_1
                (broadcastInDim S64x1 ![0] bcast_S64_S64x1_0
                  (Host.reduceAdd (F := Ideal) (mulf nc nc) (constant (F := Ideal) S_ .f32 0x00000000#32)
                    reducesTo_S64x128_S64_d1 h_S_)))
              (broadcastInDim S64x64 ![0, 1] bcast_S1x64_S64x64_0_1
                (broadcastInDim S1x64 ![1] bcast_S64_S1x64_1
                  (Host.reduceAdd (F := Ideal) (mulf nc nc) (constant (F := Ideal) S_ .f32 0x00000000#32)
                    reducesTo_S64x128_S64_d1 h_S_))))
            (mulf (broadcastInDim S64x64 ![] bcast_S_S64x64 (constant (F := Ideal) S_ .f32 0x40000000#32))
              (Host.dotGeneral (F := Ideal) (φ₁ := .f32) (φ₂ := .f32) dot_S64x128_S128x64_S64x64_1_0_0_1_n_n none nc
                (transpose (α := Ideal .f32) S128x64 [1, 0] nc transposes_S64x128_S128x64_1_0)))))))

/-- The second result is `protoRef` of the new centroid: the two sides are the same operations applied to the same array. -/
theorem v34_eq (x0 : (⟨S131072x512, .f32⟩ : BufTy).Contents (Elt Ideal)) (x1 : (⟨S131072, .i32⟩ : BufTy).Contents (Elt Ideal))
    (x2 : (⟨S128x512, .f32⟩ : BufTy).Contents (Elt Ideal)) (x3 : (⟨S128, .f32⟩ : BufTy).Contents (Elt Ideal))
    (x4 : (⟨S64x128, .f32⟩ : BufTy).Contents (Elt Ideal)) :
    Read.val_main_v34 (F := Ideal) x0 x1 x2 x3 x4 = protoRef (Read.val_main_v15 (F := Ideal) x0 x1 x2 x3 x4) := by
  unfold Read.val_main_v34 Read.val_main_v33 Read.val_main_v32 Read.val_main_cst_6 Read.val_main_v31 Read.val_main_v30
    Read.val_main_call0_v1 Read.val_main_call0_v0 Read.val_main_cst_5 Read.val_main_v29 Read.val_main_v24 Read.val_main_v22
    Read.val_main_v18 Read.val_main_v17 Read.val_main_v16 Read.val_main_cst_2 Read.val_main_v23 Read.val_main_v21
    Read.val_main_v20 Read.val_main_v19 Read.val_main_cst_3 Read.val_main_v28 Read.val_main_v27 Read.val_main_cst_4
    Read.val_main_v26 Read.val_main_v25 protoRef
  rfl

end Cert.ReferenceIdeal.RefValue

end
-- ==== Proof.ProtoEq.lean ====
/-
  The second result depends on the inputs only through the new centroid, and the two programs apply the same
  operations to it; they differ in the order of the two arguments of the maximum with `ε`, which commutes.
-/
import proofs.«420840_j11742440587416_3_alg».proof.Proof.KernelGlue
import proofs.«420840_j11742440587416_3_alg».proof.Proof.RefValue
import Idealize.ShloMosaic.Lib.ValueIdx

noncomputable section

namespace Cert.Proof.ProtoEq

open Idealize.ShloMosaic Idealize.ShloMosaic.ValueIdx

/-- The kernel's host glue and the reference form the second result by the same function of the new centroid. -/
theorem proto_eq (nc : FVec Ideal ⟨2, ![64, 128]⟩ .f32) :
    Cert.KernelIdeal.Glue.protoOf (F := Ideal) nc = Cert.ReferenceIdeal.RefValue.protoRef nc := by
  unfold Cert.KernelIdeal.Glue.protoOf Cert.ReferenceIdeal.RefValue.protoRef
  refine congrArg (Host.exp (F := Ideal) (φ := .f32) (s := ⟨2, ![64, 64]⟩)) (congrArg (mulf (F := Ideal) (φ := .f32) (s := ⟨2, ![64, 64]⟩) _) (congrArg (Host.sqrt (F := Ideal) (φ := .f32) (s := ⟨2, ![64, 64]⟩)) ?_))
  funext i
  rw [maximumf_apply, maximumf_apply]
  exact max_comm _ _

end Cert.Proof.ProtoEq

end
-- ==== Proof.lean ====
/-
  The kernel and its reference compute the same two results over the extended reals.

  Both project the 131072 rows, `P r e = Σ_k x r k · W e k + b e`; both add up, per class `c < 64`, the projections of
  the rows whose class word is `c` and count those rows (the kernel through a one-hot product accumulated over the
  tiles of each half of the batch and summed over the two halves, the reference through a scatter with an add
  body: a word outside `0 … 63` meets no class in either); both divide, add the given centroid, and from the new
  centroid `nc` form `1 / (1 + exp (-exp (-½ · sqrt (max (d², ε)))))` with
  `d² = (‖P r‖² + ‖nc c‖²) - 2 · ⟨P r, nc c⟩`, and `exp (-½ · sqrt (max (·, ε)))` of the pairwise squared distances of
  the rows of `nc`.  Only the grouping and order of sums and the order of the two arguments of a maximum differ, so
  no finiteness of the inputs is used.
-/
import proofs.«420840_j11742440587416_3_alg».proof.Defs
import proofs.«420840_j11742440587416_3_alg».proof.Proof.Gen.Kernel
import proofs.«420840_j11742440587416_3_alg».proof.Proof.Gen.Kernel.Frame
import proofs.«420840_j11742440587416_3_alg».proof.Proof.Gen.KernelIdeal
import proofs.«420840_j11742440587416_3_alg».proof.Proof.Gen.KernelIdeal.Frame
import proofs.«420840_j11742440587416_3_alg».proof.Proof.Gen.ReferenceIdeal
import proofs.«420840_j11742440587416_3_alg».proof.Proof.Gen.ReferenceIdeal.Run
import proofs.«420840_j11742440587416_3_alg».proof.Proof.Gen.ReferenceIdeal.Read
import proofs.«420840_j11742440587416_3_alg».proof.Proof.Gen.Pre_finite_inputs
import proofs.«420840_j11742440587416_3_alg».proof.Proof.KernelValue
import proofs.«420840_j11742440587416_3_alg».proof.Proof.RefValue
import proofs.«420840_j11742440587416_3_alg».proof.Proof.ProtoEq
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the score of the projection, its row norms and the
    new centroid, and with the host's function of the new centroid. -/
theorem algebraic : Cert.algebraic_KernelIdeal_ReferenceIdeal := by
  intro m ρ m' ρ' _ hagree
  refine ⟨fun c => Cert.Spec.score (Cert.KernelIdeal.Results.projOf m c) (Cert.Spec.sqRow (Cert.KernelIdeal.Results.projOf m c))
      (Cert.KernelIdeal.Results.centroidOf m c),
    fun c => Cert.KernelIdeal.Glue.protoOf (F := Ideal) (Cert.KernelIdeal.Results.centroidOf m c),
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v59_eq, Cert.ReferenceIdeal.RefValue.v59_eq, Cert.ReferenceIdeal.RefValue.v15_eq,
      (hagree c).1, (hagree c).2.1, (hagree c).2.2.1, (hagree c).2.2.2.1, (hagree c).2.2.2.2]
  · rw [Cert.ReferenceIdeal.Read.val_main_v34_eq, Cert.ReferenceIdeal.RefValue.v34_eq, Cert.ReferenceIdeal.RefValue.v15_eq,
      (hagree c).1, (hagree c).2.1, (hagree c).2.2.1, (hagree c).2.2.2.1, (hagree c).2.2.2.2]
    exact (Cert.Proof.ProtoEq.proto_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
